-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x128 .f32) (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S64x128 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩

abbrev nBuf : Space → Nat
  | .hbm => 20
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x128, .f32⟩
  | .hbm, ⟨11, _⟩ => ⟨S128x64, .f32⟩
  | .hbm, ⟨12, _⟩ => ⟨S64x64, .f32⟩
  | .hbm, ⟨13, _⟩ => ⟨S64x64, .f32⟩
  | .hbm, ⟨14, _⟩ => ⟨S1x128, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S10000x64, .f32⟩
  | .hbm, ⟨19, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S400x64, .f32⟩
  | .local _ .vmem, ⟨12, _⟩ => ⟨S400x64, .f32⟩
  | .local _ .vmem, ⟨13, _⟩ => ⟨S400x64, .f32⟩
  | .local _ .vmem, ⟨14, _⟩ => ⟨S400x64, .f32⟩
  | .local _ .vmem, ⟨15, _⟩ => ⟨S10000x128, .bf16⟩
  | .local _ .vmem, ⟨16, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c400_i32 : BitVec 32 := 400#32
  let v25 : BitVec 32 := Scalar.muli arg1 c400_i32
  let v26 : Index := Scalar.indexCast v25
  let c0_14 : Index := 0#32
  ![v26.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S400x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S400x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S128x128_S128x128_1_0 : S128x128.Transposes [1, 0] S128x128
  transposes_S64x128_S128x64_1_0 : S64x128.Transposes [1, 0] S128x64
  transposes_S64x64_S64x64_1_0 : S64x64.Transposes [1, 0] S64x64
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S400x64_S400x64_0_0 : ∀ a, (![0, 0] : Fin 2 → Nat) a + S400x64.size a ≤ S400x64.size a
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off1_packedbf16 : ∀ i : grid0.Coords, ∀ (k0_h2 : k0_cond2 i = 1#1), (Rect.unit (s := S10000x64) (k0_off1 i) S400x64.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x64.size a ≤ S10000x64.size a
  hwx0_10 : ∀ i : grid0.Coords, EltTy.bits .f32 = 32 ∨ (Rect.block (s := S10000x64) S400x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x64.size a ≤ S10000x64.size a
  hwx0_11 : ∀ i : grid0.Coords, EltTy.bits .f32 = 32 ∨ (Rect.block (s := S10000x64) S400x64.size (cc0_transform_11 i) (hinb0_11 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S400x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S400x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | 11 => fun i => !(k0_cond3 i == 1#1) | ⟨_ + 12, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x128 : Shape := ⟨2, ![1, 128]⟩
abbrev S_ : Shape := ⟨0, ![]⟩
abbrev S128x64 : Shape := ⟨2, ![128, 64]⟩
abbrev S10000x64 : Shape := ⟨2, ![10000, 64]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S128x64, .f32⟩
  | .hbm, ⟨20, _⟩ => ⟨S10000x64, .f32⟩
  | .hbm, ⟨21, _⟩ => ⟨S1x64, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S64x64, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S_, .f32⟩
  | .hbm, ⟨31, _⟩ => ⟨S10000x64, .f32⟩
  | .hbm, ⟨32, _⟩ => ⟨S10000x64, .f32⟩
  | .hbm, ⟨33, _⟩ => ⟨S64x64, .f32⟩
  | .hbm, ⟨34, _⟩ => ⟨S10000x64, .f32⟩
  | .hbm, ⟨35, _⟩ => ⟨S1x64, .f32⟩
  | .hbm, ⟨36, _⟩ => ⟨S10000x64, .f32⟩
  | .hbm, ⟨37, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S64x64_S64x64_1_0 : S64x64.Transposes [1, 0] S64x64
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KBase.lean ====
/-
  What the three runs of the kernel body and the pipeline's proof data share.

  The grid is (2, 25), fifty points in row-major order: point t has phase p = t / 25 and row block i = t % 25.
  The body has three conditionals: the first is taken at point 0 only (phase 0, block 0: the projected features
  p1 = x · W1ᵀ + b1 are computed into the first scratch buffer), the second throughout phase 0 (points 0 … 24:
  block i of h2 = relu(Adj · p1) · W2ᵀ + b2 is stored into rows [400 i, 400 i + 400) of the second scratch buffer),
  the third throughout phase 1 (points 25 … 49: block i of emb = Adj · h2 and of the projection head z are stored
  into the two output windows). So the points fall into three cases: A (point 0), B (points 1 … 24),
  C (points 25 … 49). The two output windows are idle through phase 0 and are written back at every point of
  phase 1.
-/
import proofs.«104239_g652835029058_cont_9to1_m_690_12_alg».proof.Proof.Gen.Kernel.Frame
import proofs.«104239_g652835029058_cont_9to1_m_690_12_alg».proof.Proof.Gen.Kernel.Skeleton
import Idealize.ShloMosaic.Lib.Pipeline.Value
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx (ix2)

variable {F : FTy → Type} [FloatOps F]

local notation "𝕄" => MT nD τ sig Unit (Elt F) ℕ (UR sig nD τ) ℕ

/-! ## The body's three conditions, and the points at which each holds -/

/-- "phase 0 and block 0": the first conditional's test, as the body computes it. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "phase 0": the second conditional's test. -/
abbrev condP0 (i : grid0.Coords) : Prop := k0_cond2 i = 1#1
/-- "phase 1": the third conditional's test. -/
abbrev condP1 (i : grid0.Coords) : Prop := k0_cond3 i = 1#1

theorem condFirst_iff : ∀ t : Fin cfg0.N, condFirst (grid0.coords t) ↔ t.val = 0 :=
  (by decide +kernel : ∀ t : Fin grid0.N, condFirst (grid0.coords t) ↔ t.val = 0)
theorem condP0_iff : ∀ t : Fin cfg0.N, condP0 (grid0.coords t) ↔ t.val < 25 :=
  (by decide +kernel : ∀ t : Fin grid0.N, condP0 (grid0.coords t) ↔ t.val < 25)
theorem condP1_iff : ∀ t : Fin cfg0.N, condP1 (grid0.coords t) ↔ 25 ≤ t.val :=
  (by decide +kernel : ∀ t : Fin grid0.N, condP1 (grid0.coords t) ↔ 25 ≤ t.val)

/-- The row offset of the slice of the second scratch buffer that a point of phase 0 stores: 400 times its block. -/
theorem off_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are live, and when the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The output windows are idle exactly through phase 0. -/
theorem idle10_iff : ∀ t : Fin cfg0.N, cfg0.idle 10 (grid0.coords t) = true ↔ t.val < 25 :=
  (by decide +kernel : ∀ t : Fin grid0.N, cfg0.idle 10 (grid0.coords t) = true ↔ t.val < 25)
theorem idle11_iff : ∀ t : Fin cfg0.N, cfg0.idle 11 (grid0.coords t) = true ↔ t.val < 25 :=
  (by decide +kernel : ∀ t : Fin grid0.N, cfg0.idle 11 (grid0.coords t) = true ↔ t.val < 25)
/-- and are written back at every point of phase 1 and at no other. -/
theorem flush10_iff : ∀ t : Fin cfg0.N, (cfg0.win 10).flush t = true ↔ 25 ≤ t.val :=
  (by decide +kernel : ∀ t : Fin grid0.N, win0_10.flush t = true ↔ 25 ≤ t.val)
theorem flush11_iff : ∀ t : Fin cfg0.N, (cfg0.win 11).flush t = true ↔ 25 ≤ t.val :=
  (by decide +kernel : ∀ t : Fin grid0.N, win0_11.flush t = true ↔ 25 ≤ t.val)

/-! ## The staging memrefs at a point, and the two scratch buffers -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S400x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S400x64 .f32 := win0_11.stage (cfg0.slots t 11)
abbrev hs11 (t : Fin cfg0.N) : (ms11 t).IsWhole := hstage0_11 ((cfg0.slots t 11).cast nbuf0_11)

/-- The first scratch buffer (p1, 10000 × 128) and the second (h2, 10000 × 64), as whole memrefs. -/
abbrev scP : Memref sig .tc .vmem S10000x128 .bf16 := Memref.whole cc0_scratch0
abbrev scH : Memref sig .tc .vmem S10000x64 .bf16 := Memref.whole cc0_scratch1
theorem scP_whole : scP.IsWhole := Memref.isWhole_whole _
theorem scH_whole : scH.IsWhole := Memref.isWhole_whole _

/-- The region's class invariant with the two scratch buffers as memrefs owned at some contents, and the
    generator register at some state: what the first point is handed and what the last gives back. -/
theorem PhiA_eq (c : Dev nD) :
    (Pipeline.ΦA spec0 c : sProp 𝕄)
      = iprop(iprop((∃ d, owns (c : Thread nD τ) scP fullShare d) ∗ (∃ d, owns (c : Thread nD τ) scH fullShare d)) ∗ (∃ r, prngReg c r)) := by
  unfold Pipeline.ΦA; rw [scopedRest0_eq]; simp only [scP, scH, owns_whole]; try rfl

/-! ## A slice store into the second scratch buffer -/

/-- The zero offsets of a rank-2 rectangle, as the constant function. -/
theorem hz2 : (![0, 0] : Fin 2 → Nat) = fun _ => 0 := by
  funext a; match a with | ⟨0, _⟩ => rfl | ⟨1, _⟩ => rfl

/-- What a whole 10000 × 64 buffer that held `xs1` reads after the 400 rows at the point's offset are stored over
    with `pay`. -/
def h2Store (i : grid0.Coords) (hc1 : condP0 i) (arg15 : Memref sig .tc .vmem S10000x64 .bf16) (harg15 : arg15.IsWhole)
    (xs1 : Vec F S10000x64 .bf16) (pay : Vec F S400x64 .bf16) : Vec F S10000x64 .bf16 :=
  arg15.view.read (Elt F) (arg15.view.writes (Elt F) (harg15.unread xs1)
    [(⟨Rect.unit (s := S10000x64) (k0_off1 i) S400x64.size (k0_off1_inb i hc1), pay⟩ : View.Piece (Elt F) S10000x64 .bf16)])

/-- Row 400 t + r of the stored slice reads row r of the payload, -/
theorem h2Store_in (t : Fin cfg0.N) (ht : t.val < 25) (arg15 : Memref sig .tc .vmem S10000x64 .bf16) (harg15 : arg15.IsWhole)
    (xs1 : Vec F S10000x64 .bf16) (pay : Vec F S400x64 .bf16) (n : Fin 10000) (e : Fin 64) (r : Fin 400)
    (hn : n.val = 400 * t.val + r.val) :
    h2Store (grid0.coords t) ((condP0_iff t).mpr ht) arg15 harg15 xs1 pay (ix2 n e) = pay (ix2 r e) := by
  unfold h2Store
  exact View.read_writes_cons_rows_of_mem arg15.view _ (k0_off1_inb (grid0.coords t) ((condP0_iff t).mpr ht)) pay [] (ix2 n e) (ix2 r e) (off_eq t ht) hn rfl

/-- and a row outside [400 t, 400 t + 400) reads what the buffer held. -/
theorem h2Store_out (t : Fin cfg0.N) (ht : t.val < 25) (arg15 : Memref sig .tc .vmem S10000x64 .bf16) (harg15 : arg15.IsWhole)
    (xs1 : Vec F S10000x64 .bf16) (pay : Vec F S400x64 .bf16) (n : Fin 10000) (e : Fin 64)
    (hn : n.val < 400 * t.val ∨ 400 * t.val + 400 ≤ n.val) :
    h2Store (grid0.coords t) ((condP0_iff t).mpr ht) arg15 harg15 xs1 pay (ix2 n e) = xs1 (ix2 n e) := by
  unfold h2Store
  rw [View.read_writes_cons_rows_of_not_mem arg15.view _ (k0_off1_inb (grid0.coords t) ((condP0_iff t).mpr ht)) pay [] (ix2 n e) (off_eq t ht) (W := 400) rfl hn,
    View.writes_nil, harg15.read_unread]

end Cert.Kernel.Hand

end
-- ==== Proof.KRunA.lean ====
/-
  The kernel body at the first grid point (case A).

  The first two conditionals are taken. The body computes p1 = x · W1ᵀ + b1 and stores it into the whole of the
  first scratch buffer (whatever that held); then, like every point of phase 0, it reads p1 back, and stores
  relu(Adj_0 · p1) · W2ᵀ + b2  into rows [0, 400) of the second scratch buffer. The output windows are not touched.
-/
import proofs.«104239_g652835029058_cont_9to1_m_690_12_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case A: from the inputs at their contents, the outputs at `y10`, `y11`, the first scratch buffer at anything and
    the second at `xs1`, the body runs to the first scratch buffer at `k0_pay1 x1 x2 x3` and the second at `xs1` with
    the point's slice overwritten by `k0_pay3` of the point's rows of Adj and that p1, everything else unchanged. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x128 .bf16) (harg14 : arg14.IsWhole) (arg15 : Memref sig .tc .vmem S10000x64 .bf16) (harg15 : arg15.IsWhole) (hc0 : condFirst i) (hc1 : condP0 i) (hc2 : ¬condP1 i)
    (x0 : Vec F S400x10000 .f32) (x1 : Vec F S10000x128 .f32) (x2 : Vec F S128x128 .f32) (x3 : Vec F S1x128 .f32) (x4 : Vec F S128x64 .f32) (x5 : Vec F S1x64 .f32) (x6 : Vec F S64x64 .f32) (x7 : Vec F S1x64 .f32) (x8 : Vec F S64x64 .f32) (x9 : Vec F S1x64 .f32) (y10 : Vec F S400x64 .f32) (y11 : Vec F S400x64 .f32) (xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y10 ∗ owns (c : Thread nD τ) arg13 fullShare y11 ∗ (∃ d, owns (c : Thread nD τ) arg14 fullShare d) ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y10 ∗ owns (c : Thread nD τ) arg13 fullShare y11 ∗ owns (c : Thread nD τ) arg14 fullShare (k0_pay1 x1 x2 x3) ∗ owns (c : Thread nD τ) arg15 fullShare (h2Store i hc1 arg15 harg15 xs1 (k0_pay3 x0 (k0_pay1 x1 x2 x3) x4 x5))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [HS0]
  · iexists _; isplitr; swap; · iexact HS0
    ipureintro
    sl_unfold_words
    rw [View.read_writes_eq_canon _ _ _ (fun y => ⟨_, List.mem_singleton_self _, View.mem_set_unit_zero hz2 inb_S10000x128_S10000x128_0_0 y⟩), View.canon_unit_zero hz2]
    simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]
  iexists _; isplitr; swap; · iexact HS1
  ipureintro
  unfold h2Store
  sl_unfold_words
  simp only [View.readAt_eq_ld, View.readCov_unit_zero (S := S10000x128) _ hz2, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]

end Cert.Kernel.Hand

end
-- ==== Proof.KRunB.lean ====
/-
  The kernel body at a point of phase 0 other than the first (case B).

  Only the second conditional is taken: the body loads the point's 400 rows of Adj and the whole of the first
  scratch buffer p1, and stores  relu(Adj_i · p1) · W2ᵀ + b2  into rows [400 i, 400 i + 400) of the second scratch
  buffer h2. The output windows are not touched.
-/
import proofs.«104239_g652835029058_cont_9to1_m_690_12_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case B: from the inputs at their contents, the outputs at `y10`, `y11` and the scratch buffers at `xs0`, `xs1`,
    the body runs to the second scratch buffer at `xs1` with the point's slice overwritten by `k0_pay3 x0 xs0 x4 x5`,
    everything else unchanged. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x128 .bf16) (harg14 : arg14.IsWhole) (arg15 : Memref sig .tc .vmem S10000x64 .bf16) (harg15 : arg15.IsWhole) (hc0 : ¬condFirst i) (hc1 : condP0 i) (hc2 : ¬condP1 i)
    (x0 : Vec F S400x10000 .f32) (x1 : Vec F S10000x128 .f32) (x2 : Vec F S128x128 .f32) (x3 : Vec F S1x128 .f32) (x4 : Vec F S128x64 .f32) (x5 : Vec F S1x64 .f32) (x6 : Vec F S64x64 .f32) (x7 : Vec F S1x64 .f32) (x8 : Vec F S64x64 .f32) (x9 : Vec F S1x64 .f32) (y10 : Vec F S400x64 .f32) (y11 : Vec F S400x64 .f32) (xs0 : Vec F S10000x128 .bf16) (xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y10 ∗ owns (c : Thread nD τ) arg13 fullShare y11 ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y10 ∗ owns (c : Thread nD τ) arg13 fullShare y11 ∗ owns (c : Thread nD τ) arg14 fullShare xs0 ∗ owns (c : Thread nD τ) arg15 fullShare (h2Store i hc1 arg15 harg15 xs1 (k0_pay3 x0 xs0 x4 x5))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [HS0]
  · iexists _; isplitr; · ipureintro; exact harg14.read_unread _
    iexact HS0
  iexists _; isplitr; swap; · iexact HS1
  ipureintro
  unfold h2Store
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]

end Cert.Kernel.Hand

end
-- ==== Proof.KRunC.lean ====
/-
  The kernel body at a point of phase 1 (case C).

  Only the third conditional is taken: the body loads the point's 400 rows of Adj and the whole of the second
  scratch buffer h2, stores emb's block  Adj_i · h2  into the second output window and the projection head of that
  block into the first, each through the window's whole rectangle, and touches nothing else. So both output
  buffers end at their payloads, whatever they held, and both scratch buffers are handed back as they were.
-/
import proofs.«104239_g652835029058_cont_9to1_m_690_12_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case C: from the inputs at their contents, the outputs at anything and the two scratch buffers at `xs0` and
    `xs1`, the body runs to the first output at the projection head of  x0 · xs1  (`k0_pay5`), the second at
    x0 · xs1  (`k0_pay4`), everything else unchanged. -/
theorem runC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x128 .bf16) (harg14 : arg14.IsWhole) (arg15 : Memref sig .tc .vmem S10000x64 .bf16) (harg15 : arg15.IsWhole) (hc0 : ¬condFirst i) (hc1 : ¬condP0 i) (hc2 : condP1 i)
    (x0 : Vec F S400x10000 .f32) (x1 : Vec F S10000x128 .f32) (x2 : Vec F S128x128 .f32) (x3 : Vec F S1x128 .f32) (x4 : Vec F S128x64 .f32) (x5 : Vec F S1x64 .f32) (x6 : Vec F S64x64 .f32) (x7 : Vec F S1x64 .f32) (x8 : Vec F S64x64 .f32) (x9 : Vec F S1x64 .f32) (xs0 : Vec F S10000x128 .bf16) (xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay5 x0 xs1 x6 x7 x8 x9) ∗ owns (c : Thread nD τ) arg13 fullShare (k0_pay4 x0 xs1) ∗ owns (c : Thread nD τ) arg14 fullShare xs0 ∗ owns (c : Thread nD τ) arg15 fullShare xs1) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    rw [View.read_writes_eq_canon _ _ _ (fun y => ⟨_, List.mem_singleton_self _, View.mem_set_unit_zero hz2 inb_S400x64_S400x64_0_0 y⟩), View.canon_unit_zero hz2]
    simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]
  isplitl [H11]
  · iexists _; isplitr; swap; · iexact H11
    ipureintro
    rw [View.read_writes_eq_canon _ _ _ (fun y => ⟨_, List.mem_singleton_self _, View.mem_set_unit_zero hz2 inb_S400x64_S400x64_0_0 y⟩), View.canon_unit_zero hz2]
    simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]
  isplitl [HS0]
  · iexists _; isplitr; · ipureintro; exact harg14.read_unread _
    iexact HS0
  iexists _; isplitr; · ipureintro; exact harg15.read_unread _
  iexact HS1

end Cert.Kernel.Hand

end
-- ==== Proof.KData.lean ====
/-
  The pipeline's proof data with every content named, the body obligation, and the run.

  Named contents. p1 is what the first point stores into the first scratch buffer: `k0_pay1` of the (whole) blocks
  of x, W1ᵀ and b1. Block t of h2 (t < 25) is what point t stores into rows [400 t, 400 t + 400) of the second
  scratch buffer: `k0_pay3` of the point's rows of Adj, p1, W2ᵀ and b2; h2 itself is the 10000 × 64 array whose row n
  is row n mod 400 of block n / 400. After point t of phase 1 the first output window holds `k0_pay5` and the second
  `k0_pay4` of the point's rows of Adj and h2 (and the projection head's weights).

  The invariant between points: before the first point the scratch buffers hold anything; after point n the first
  holds p1 and the second holds SOME contents that agree with h2 on the rows below 400 (n + 1) — so from the end of
  phase 0 on it is h2. The output windows are idle through phase 0 (the body hands them back as it found them) and
  are stored whole at every point of phase 1.
-/
import proofs.«104239_g652835029058_cont_9to1_m_690_12_alg».proof.Proof.KRunA
import proofs.«104239_g652835029058_cont_9to1_m_690_12_alg».proof.Proof.KRunB
import proofs.«104239_g652835029058_cont_9to1_m_690_12_alg».proof.Proof.KRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx (ix2 eq_ix2 idx2_lt0)

variable (m : (ℓ : Loc nD τ sig) → Buf (Elt F) ℓ) (ρ : Dev nD → PrngReg)

theorem lt50 (t : Fin cfg0.N) : t.val < 50 := lt_of_lt_of_eq t.isLt (show cfg0.N = 50 from N_0)

/-- The first grid point. -/
def t0 : Fin cfg0.N := ⟨0, lt_of_lt_of_eq (by decide : 0 < 50) (show cfg0.N = 50 from N_0).symm⟩

/-! ## The named contents -/

/-- p1, as the first point computes it. -/
def P1 (c : Dev nD) : Vec F S10000x128 .bf16 := k0_pay1 (iblk m c 1 t0) (iblk m c 2 t0) (iblk m c 3 t0)

/-- Block t of h2, as point t of phase 0 computes it. -/
def H2blk (c : Dev nD) (t : Fin cfg0.N) : Vec F S400x64 .bf16 := k0_pay3 (iblk m c 0 t) (P1 m c) (iblk m c 4 t) (iblk m c 5 t)

/-- h2: row n is row n mod 400 of block n / 400. -/
def H2 (c : Dev nD) : Vec F S10000x64 .bf16 := fun j =>
  H2blk m c ⟨(j 0).val / 400, lt_of_lt_of_eq (by have := idx2_lt0 j; omega) (show cfg0.N = 50 from N_0).symm⟩
    (ix2 ⟨(j 0).val % 400, Nat.mod_lt _ (by decide)⟩ (j 1))

/-- Row 400 t + r of h2 is row r of block t. -/
theorem H2_at (c : Dev nD) (t : Fin cfg0.N) (r : Fin 400) (n : Fin 10000) (e : Fin 64) (hn : n.val = 400 * t.val + r.val) :
    H2 m c (ix2 n e) = H2blk m c t (ix2 r e) := by
  have hr : r.val < 400 := r.isLt
  have e1 : n.val / 400 = t.val := by omega
  have e2 : n.val % 400 = r.val := by omega
  unfold H2
  exact congrArg₂ (fun (a : Fin cfg0.N) (b : Fin 400) => H2blk m c a (ix2 b e)) (Fin.ext e1) (Fin.ext e2)

/-! ## The invariant between points -/

/-- Before point `n`: at the start the class invariant (both scratch buffers at anything); afterwards the first at
    p1 and the second at contents that agree with h2 below row 400 n. -/
def PhiS (c : Dev nD) : (n : ℕ) → n ≤ cfg0.N → sProp 𝕄
  | 0, _ => Pipeline.ΦA spec0 c
  | n + 1, _ => iprop(iprop(owns (c : Thread nD τ) scP fullShare (P1 m c) ∗ (∃ h, owns (c : Thread nD τ) scH fullShare h ∗ ⌜∀ (a : Fin 10000) (e : Fin 64), a.val < 400 * (n + 1) → h (ix2 a e) = H2 m c (ix2 a e)⌝)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scP fullShare (P1 m c) ∗ (∃ h, owns (c : Thread nD τ) scH fullShare h ∗ ⌜∀ (a : Fin 10000) (e : Fin 64), a.val < 400 * (n + 1) → h (ix2 a e) = H2 m c (ix2 a e)⌝)) ∗ (∃ r, prngReg c r)) := rfl

theorem PhiS_pos (c : Dev nD) (n : ℕ) (h : n ≤ cfg0.N) (hz : n ≠ 0) :
    PhiS m c n h = iprop(iprop(owns (c : Thread nD τ) scP fullShare (P1 m c) ∗ (∃ h, owns (c : Thread nD τ) scH fullShare h ∗ ⌜∀ (a : Fin 10000) (e : Fin 64), a.val < 400 * (n - 1 + 1) → h (ix2 a e) = H2 m c (ix2 a e)⌝)) ∗ (∃ r, prngReg c r)) := by
  cases n with
  | zero => exact absurd rfl hz
  | succ n => rfl

/-! ## The proof data -/

/-- The proof data of the pipeline on core `c`: the arrays as the region finds them; after the body at point `t`
    each input's buffer at its block, the first output's at the projection head of the point's block of emb and the
    second's at that block (consulted only in phase 1, where the outputs are live); the invariant `PhiS`; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay5 (iblk m c 0 t) (H2 m c) (iblk m c 6 t) (iblk m c 7 t) (iblk m c 8 t) (iblk m c 9 t)
    | ⟨11, _⟩ => k0_pay4 (iblk m c 0 t) (H2 m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) :
    (dats m 0 c).after 10 t = k0_pay5 (iblk m c 0 t) (H2 m c) (iblk m c 6 t) (iblk m c 7 t) (iblk m c 8 t) (iblk m c 9 t) := by dsimp only [dats]
theorem after_11 (c : Dev nD) (t : Fin cfg0.N) : (dats m 0 c).after 11 t = k0_pay4 (iblk m c 0 t) (H2 m c) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at any point: the closed forms of the three conditions say which case the point is in; the invariant
    hands the run the scratch buffers at what the point before left and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 50 := lt50 t
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [show (dats m 0 c).leavesExact 7 t = owns (c : Thread nD τ) (ms7 t) fullShare ((dats m 0 c).after 7 t) from by
    unfold Dat.leavesExact; rw [live7 t], after_7]
  rw [show (dats m 0 c).leavesExact 8 t = owns (c : Thread nD τ) (ms8 t) fullShare ((dats m 0 c).after 8 t) from by
    unfold Dat.leavesExact; rw [live8 t], after_8]
  rw [show (dats m 0 c).leavesExact 9 t = owns (c : Thread nD τ) (ms9 t) fullShare ((dats m 0 c).after 9 t) from by
    unfold Dat.leavesExact; rw [live9 t], after_9]
  by_cases h1 : t.val < 25
  · -- phase 0: the outputs are idle
    rw [(dats m 0 c).leavesExact_idle 10 t ((idle10_iff t).mpr h1) (Bool.eq_false_iff.mpr fun h => absurd ((flush10_iff t).mp h) (by omega))]
    rw [(dats m 0 c).leavesExact_idle 11 t ((idle11_iff t).mpr h1) (Bool.eq_false_iff.mpr fun h => absurd ((flush11_iff t).mp h) (by omega))]
    by_cases hz : t.val = 0
    · -- case A: the first point
      obtain rfl : t = t0 := Fin.ext hz
      rw [PhiS_castSucc m c t0, PhiS_zero m c _ _ hz, PhiA_eq]
      iintro ⟨⟨⟨⟨%dP, HS0⟩, ⟨%dH, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t0) _ _ _ _ _ _ _ _ _ _ _ _ _ _ _ _ _ _ _ _ _ _ _ _ _ _ _ _ ((condFirst_iff t0).mpr hz) ((condP0_iff t0).mpr h1) (fun h => absurd ((condP1_iff t0).mp h) (by omega)) (iblk m c 0 t0) (iblk m c 1 t0) (iblk m c 2 t0) (iblk m c 3 t0) (iblk m c 4 t0) (iblk m c 5 t0) (iblk m c 6 t0) (iblk m c 7 t0) (iblk m c 8 t0) (iblk m c 9 t0) _ _ dH Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]; · iexact HS0
          iexists _; isplitl [HS1]; · iexact HS1
          ipureintro
          intro a e ha
          rw [h2Store_in t0 h1 _ _ _ _ a e ⟨a.val, by omega⟩ (by rw [hz]; simp)]
          exact (H2_at m c t0 ⟨a.val, by omega⟩ a e (by rw [hz]; simp)).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · -- case B: a later point of phase 0
      rw [PhiS_castSucc m c t, PhiS_pos m c _ _ hz]
      iintro ⟨⟨⟨HS0, ⟨%h, HS1, %hh⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB c (grid0.coords t) _ _ _ _ _ _ _ _ _ _ _ _ _ _ _ _ _ _ _ _ _ _ _ _ _ _ _ _ (fun h => hz ((condFirst_iff t).mp h)) ((condP0_iff t).mpr h1) (fun h => absurd ((condP1_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) _ _ (P1 m c) h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]; · iexact HS0
          iexists _; isplitl [HS1]; · iexact HS1
          ipureintro
          intro a e ha
          by_cases hlt : a.val < 400 * t.val
          · rw [h2Store_out t h1 _ _ _ _ a e (Or.inl hlt)]
            exact hh a e (by omega)
          · rw [h2Store_in t h1 _ _ _ _ a e ⟨a.val - 400 * t.val, by omega⟩ (by simp only; omega)]
            exact (H2_at m c t ⟨a.val - 400 * t.val, by omega⟩ a e (by simp only; omega)).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · -- case C: phase 1, the outputs are live
    have hz : t.val ≠ 0 := by omega
    rw [show (dats m 0 c).leavesExact 10 t = owns (c : Thread nD τ) (ms10 t) fullShare ((dats m 0 c).after 10 t) from by
      unfold Dat.leavesExact; rw [Bool.eq_false_iff.mpr fun h => absurd ((idle10_iff t).mp h) (by omega)], after_10]
    rw [show (dats m 0 c).leavesExact 11 t = owns (c : Thread nD τ) (ms11 t) fullShare ((dats m 0 c).after 11 t) from by
      unfold Dat.leavesExact; rw [Bool.eq_false_iff.mpr fun h => absurd ((idle11_iff t).mp h) (by omega)], after_11]
    rw [PhiS_castSucc m c t, PhiS_pos m c _ _ hz]
    iintro ⟨⟨⟨HS0, ⟨%h, HS1, %hh⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl : h = H2 m c := funext fun j => by
      obtain ⟨a, e, rfl⟩ : ∃ (a : Fin 10000) (e : Fin 64), j = ix2 a e := ⟨j 0, j 1, eq_ix2 j⟩
      exact hh a e (by have := a.isLt; omega)
    iapply (runC c (grid0.coords t) _ _ _ _ _ _ _ _ _ _ _ _ _ _ _ _ _ _ _ _ _ _ _ _ _ _ _ _ (fun h => hz ((condFirst_iff t).mp h)) (fun h => h1 ((condP0_iff t).mp h)) ((condP1_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (P1 m c) (H2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]; · iexact HS0
        iexists _; isplitl [HS1]; · iexact HS1
        ipureintro
        intro a e _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HS0, ⟨%h, HS1, -⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has each array of the pipeline at what
    the proof data compute for it (an input as it was, an output overwritten block by block by what the body left at
    each write-back) and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => by unfold Pipeline.Dat.share; split <;> rfl)
    (howed := fun _ _ => rfl) (V := V m) (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KIBase.lean ====
/-
  What the three runs of the kernel body and the pipeline's proof data share.

  The grid is (2, 25), fifty points in row-major order: point t has phase p = t / 25 and row block i = t % 25.
  The body has three conditionals: the first is taken at point 0 only (phase 0, block 0: the projected features
  p1 = x · W1ᵀ + b1 are computed into the first scratch buffer), the second throughout phase 0 (points 0 … 24:
  block i of h2 = relu(Adj · p1) · W2ᵀ + b2 is stored into rows [400 i, 400 i + 400) of the second scratch buffer),
  the third throughout phase 1 (points 25 … 49: block i of emb = Adj · h2 and of the projection head z are stored
  into the two output windows). So the points fall into three cases: A (point 0), B (points 1 … 24),
  C (points 25 … 49). The two output windows are idle through phase 0 and are written back at every point of
  phase 1.
-/
import proofs.«104239_g652835029058_cont_9to1_m_690_12_alg».proof.Proof.Gen.KernelIdeal.Frame
import proofs.«104239_g652835029058_cont_9to1_m_690_12_alg».proof.Proof.Gen.KernelIdeal.Skeleton
import Idealize.ShloMosaic.Lib.Pipeline.Value
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2)

variable {F : FTy → Type} [FloatOps F]

local notation "𝕄" => MT nD τ sig Unit (Elt F) ℕ (UR sig nD τ) ℕ

/-! ## The body's three conditions, and the points at which each holds -/

/-- "phase 0 and block 0": the first conditional's test, as the body computes it. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "phase 0": the second conditional's test. -/
abbrev condP0 (i : grid0.Coords) : Prop := k0_cond2 i = 1#1
/-- "phase 1": the third conditional's test. -/
abbrev condP1 (i : grid0.Coords) : Prop := k0_cond3 i = 1#1

theorem condFirst_iff : ∀ t : Fin cfg0.N, condFirst (grid0.coords t) ↔ t.val = 0 :=
  (by decide +kernel : ∀ t : Fin grid0.N, condFirst (grid0.coords t) ↔ t.val = 0)
theorem condP0_iff : ∀ t : Fin cfg0.N, condP0 (grid0.coords t) ↔ t.val < 25 :=
  (by decide +kernel : ∀ t : Fin grid0.N, condP0 (grid0.coords t) ↔ t.val < 25)
theorem condP1_iff : ∀ t : Fin cfg0.N, condP1 (grid0.coords t) ↔ 25 ≤ t.val :=
  (by decide +kernel : ∀ t : Fin grid0.N, condP1 (grid0.coords t) ↔ 25 ≤ t.val)

/-- The row offset of the slice of the second scratch buffer that a point of phase 0 stores: 400 times its block. -/
theorem off_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are live, and when the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The output windows are idle exactly through phase 0. -/
theorem idle10_iff : ∀ t : Fin cfg0.N, cfg0.idle 10 (grid0.coords t) = true ↔ t.val < 25 :=
  (by decide +kernel : ∀ t : Fin grid0.N, cfg0.idle 10 (grid0.coords t) = true ↔ t.val < 25)
theorem idle11_iff : ∀ t : Fin cfg0.N, cfg0.idle 11 (grid0.coords t) = true ↔ t.val < 25 :=
  (by decide +kernel : ∀ t : Fin grid0.N, cfg0.idle 11 (grid0.coords t) = true ↔ t.val < 25)
/-- and are written back at every point of phase 1 and at no other. -/
theorem flush10_iff : ∀ t : Fin cfg0.N, (cfg0.win 10).flush t = true ↔ 25 ≤ t.val :=
  (by decide +kernel : ∀ t : Fin grid0.N, win0_10.flush t = true ↔ 25 ≤ t.val)
theorem flush11_iff : ∀ t : Fin cfg0.N, (cfg0.win 11).flush t = true ↔ 25 ≤ t.val :=
  (by decide +kernel : ∀ t : Fin grid0.N, win0_11.flush t = true ↔ 25 ≤ t.val)

/-! ## The staging memrefs at a point, and the two scratch buffers -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S400x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S400x64 .f32 := win0_11.stage (cfg0.slots t 11)
abbrev hs11 (t : Fin cfg0.N) : (ms11 t).IsWhole := hstage0_11 ((cfg0.slots t 11).cast nbuf0_11)

/-- The first scratch buffer (p1, 10000 × 128) and the second (h2, 10000 × 64), as whole memrefs. -/
abbrev scP : Memref sig .tc .vmem S10000x128 .bf16 := Memref.whole cc0_scratch0
abbrev scH : Memref sig .tc .vmem S10000x64 .bf16 := Memref.whole cc0_scratch1
theorem scP_whole : scP.IsWhole := Memref.isWhole_whole _
theorem scH_whole : scH.IsWhole := Memref.isWhole_whole _

/-- The region's class invariant with the two scratch buffers as memrefs owned at some contents, and the
    generator register at some state: what the first point is handed and what the last gives back. -/
theorem PhiA_eq (c : Dev nD) :
    (Pipeline.ΦA spec0 c : sProp 𝕄)
      = iprop(iprop((∃ d, owns (c : Thread nD τ) scP fullShare d) ∗ (∃ d, owns (c : Thread nD τ) scH fullShare d)) ∗ (∃ r, prngReg c r)) := by
  unfold Pipeline.ΦA; rw [scopedRest0_eq]; simp only [scP, scH, owns_whole]; try rfl

/-! ## A slice store into the second scratch buffer -/

/-- The zero offsets of a rank-2 rectangle, as the constant function. -/
theorem hz2 : (![0, 0] : Fin 2 → Nat) = fun _ => 0 := by
  funext a; match a with | ⟨0, _⟩ => rfl | ⟨1, _⟩ => rfl

/-- What a whole 10000 × 64 buffer that held `xs1` reads after the 400 rows at the point's offset are stored over
    with `pay`. -/
def h2Store (i : grid0.Coords) (hc1 : condP0 i) (arg15 : Memref sig .tc .vmem S10000x64 .bf16) (harg15 : arg15.IsWhole)
    (xs1 : Vec F S10000x64 .bf16) (pay : Vec F S400x64 .bf16) : Vec F S10000x64 .bf16 :=
  arg15.view.read (Elt F) (arg15.view.writes (Elt F) (harg15.unread xs1)
    [(⟨Rect.unit (s := S10000x64) (k0_off1 i) S400x64.size (k0_off1_inb i hc1), pay⟩ : View.Piece (Elt F) S10000x64 .bf16)])

/-- Row 400 t + r of the stored slice reads row r of the payload, -/
theorem h2Store_in (t : Fin cfg0.N) (ht : t.val < 25) (arg15 : Memref sig .tc .vmem S10000x64 .bf16) (harg15 : arg15.IsWhole)
    (xs1 : Vec F S10000x64 .bf16) (pay : Vec F S400x64 .bf16) (n : Fin 10000) (e : Fin 64) (r : Fin 400)
    (hn : n.val = 400 * t.val + r.val) :
    h2Store (grid0.coords t) ((condP0_iff t).mpr ht) arg15 harg15 xs1 pay (ix2 n e) = pay (ix2 r e) := by
  unfold h2Store
  exact View.read_writes_cons_rows_of_mem arg15.view _ (k0_off1_inb (grid0.coords t) ((condP0_iff t).mpr ht)) pay [] (ix2 n e) (ix2 r e) (off_eq t ht) hn rfl

/-- and a row outside [400 t, 400 t + 400) reads what the buffer held. -/
theorem h2Store_out (t : Fin cfg0.N) (ht : t.val < 25) (arg15 : Memref sig .tc .vmem S10000x64 .bf16) (harg15 : arg15.IsWhole)
    (xs1 : Vec F S10000x64 .bf16) (pay : Vec F S400x64 .bf16) (n : Fin 10000) (e : Fin 64)
    (hn : n.val < 400 * t.val ∨ 400 * t.val + 400 ≤ n.val) :
    h2Store (grid0.coords t) ((condP0_iff t).mpr ht) arg15 harg15 xs1 pay (ix2 n e) = xs1 (ix2 n e) := by
  unfold h2Store
  rw [View.read_writes_cons_rows_of_not_mem arg15.view _ (k0_off1_inb (grid0.coords t) ((condP0_iff t).mpr ht)) pay [] (ix2 n e) (off_eq t ht) (W := 400) rfl hn,
    View.writes_nil, harg15.read_unread]

end Cert.KernelIdeal.Hand

end
-- ==== Proof.KIRunA.lean ====
/-
  The kernel body at the first grid point (case A).

  The first two conditionals are taken. The body computes p1 = x · W1ᵀ + b1 and stores it into the whole of the
  first scratch buffer (whatever that held); then, like every point of phase 0, it reads p1 back, and stores
  relu(Adj_0 · p1) · W2ᵀ + b2  into rows [0, 400) of the second scratch buffer. The output windows are not touched.
-/
import proofs.«104239_g652835029058_cont_9to1_m_690_12_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case A: from the inputs at their contents, the outputs at `y10`, `y11`, the first scratch buffer at anything and
    the second at `xs1`, the body runs to the first scratch buffer at `k0_pay1 x1 x2 x3` and the second at `xs1` with
    the point's slice overwritten by `k0_pay3` of the point's rows of Adj and that p1, everything else unchanged. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x128 .bf16) (harg14 : arg14.IsWhole) (arg15 : Memref sig .tc .vmem S10000x64 .bf16) (harg15 : arg15.IsWhole) (hc0 : condFirst i) (hc1 : condP0 i) (hc2 : ¬condP1 i)
    (x0 : Vec F S400x10000 .f32) (x1 : Vec F S10000x128 .f32) (x2 : Vec F S128x128 .f32) (x3 : Vec F S1x128 .f32) (x4 : Vec F S128x64 .f32) (x5 : Vec F S1x64 .f32) (x6 : Vec F S64x64 .f32) (x7 : Vec F S1x64 .f32) (x8 : Vec F S64x64 .f32) (x9 : Vec F S1x64 .f32) (y10 : Vec F S400x64 .f32) (y11 : Vec F S400x64 .f32) (xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y10 ∗ owns (c : Thread nD τ) arg13 fullShare y11 ∗ (∃ d, owns (c : Thread nD τ) arg14 fullShare d) ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y10 ∗ owns (c : Thread nD τ) arg13 fullShare y11 ∗ owns (c : Thread nD τ) arg14 fullShare (k0_pay1 x1 x2 x3) ∗ owns (c : Thread nD τ) arg15 fullShare (h2Store i hc1 arg15 harg15 xs1 (k0_pay3 x0 (k0_pay1 x1 x2 x3) x4 x5))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [HS0]
  · iexists _; isplitr; swap; · iexact HS0
    ipureintro
    sl_unfold_words
    rw [View.read_writes_eq_canon _ _ _ (fun y => ⟨_, List.mem_singleton_self _, View.mem_set_unit_zero hz2 inb_S10000x128_S10000x128_0_0 y⟩), View.canon_unit_zero hz2]
    simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]
  iexists _; isplitr; swap; · iexact HS1
  ipureintro
  unfold h2Store
  sl_unfold_words
  simp only [View.readAt_eq_ld, View.readCov_unit_zero (S := S10000x128) _ hz2, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]

end Cert.KernelIdeal.Hand

end
-- ==== Proof.KIRunB.lean ====
/-
  The kernel body at a point of phase 0 other than the first (case B).

  Only the second conditional is taken: the body loads the point's 400 rows of Adj and the whole of the first
  scratch buffer p1, and stores  relu(Adj_i · p1) · W2ᵀ + b2  into rows [400 i, 400 i + 400) of the second scratch
  buffer h2. The output windows are not touched.
-/
import proofs.«104239_g652835029058_cont_9to1_m_690_12_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case B: from the inputs at their contents, the outputs at `y10`, `y11` and the scratch buffers at `xs0`, `xs1`,
    the body runs to the second scratch buffer at `xs1` with the point's slice overwritten by `k0_pay3 x0 xs0 x4 x5`,
    everything else unchanged. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x128 .bf16) (harg14 : arg14.IsWhole) (arg15 : Memref sig .tc .vmem S10000x64 .bf16) (harg15 : arg15.IsWhole) (hc0 : ¬condFirst i) (hc1 : condP0 i) (hc2 : ¬condP1 i)
    (x0 : Vec F S400x10000 .f32) (x1 : Vec F S10000x128 .f32) (x2 : Vec F S128x128 .f32) (x3 : Vec F S1x128 .f32) (x4 : Vec F S128x64 .f32) (x5 : Vec F S1x64 .f32) (x6 : Vec F S64x64 .f32) (x7 : Vec F S1x64 .f32) (x8 : Vec F S64x64 .f32) (x9 : Vec F S1x64 .f32) (y10 : Vec F S400x64 .f32) (y11 : Vec F S400x64 .f32) (xs0 : Vec F S10000x128 .bf16) (xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y10 ∗ owns (c : Thread nD τ) arg13 fullShare y11 ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y10 ∗ owns (c : Thread nD τ) arg13 fullShare y11 ∗ owns (c : Thread nD τ) arg14 fullShare xs0 ∗ owns (c : Thread nD τ) arg15 fullShare (h2Store i hc1 arg15 harg15 xs1 (k0_pay3 x0 xs0 x4 x5))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [HS0]
  · iexists _; isplitr; · ipureintro; exact harg14.read_unread _
    iexact HS0
  iexists _; isplitr; swap; · iexact HS1
  ipureintro
  unfold h2Store
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]

end Cert.KernelIdeal.Hand

end
-- ==== Proof.KIRunC.lean ====
/-
  The kernel body at a point of phase 1 (case C).

  Only the third conditional is taken: the body loads the point's 400 rows of Adj and the whole of the second
  scratch buffer h2, stores emb's block  Adj_i · h2  into the second output window and the projection head of that
  block into the first, each through the window's whole rectangle, and touches nothing else. So both output
  buffers end at their payloads, whatever they held, and both scratch buffers are handed back as they were.
-/
import proofs.«104239_g652835029058_cont_9to1_m_690_12_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case C: from the inputs at their contents, the outputs at anything and the two scratch buffers at `xs0` and
    `xs1`, the body runs to the first output at the projection head of  x0 · xs1  (`k0_pay5`), the second at
    x0 · xs1  (`k0_pay4`), everything else unchanged. -/
theorem runC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x128 .bf16) (harg14 : arg14.IsWhole) (arg15 : Memref sig .tc .vmem S10000x64 .bf16) (harg15 : arg15.IsWhole) (hc0 : ¬condFirst i) (hc1 : ¬condP0 i) (hc2 : condP1 i)
    (x0 : Vec F S400x10000 .f32) (x1 : Vec F S10000x128 .f32) (x2 : Vec F S128x128 .f32) (x3 : Vec F S1x128 .f32) (x4 : Vec F S128x64 .f32) (x5 : Vec F S1x64 .f32) (x6 : Vec F S64x64 .f32) (x7 : Vec F S1x64 .f32) (x8 : Vec F S64x64 .f32) (x9 : Vec F S1x64 .f32) (xs0 : Vec F S10000x128 .bf16) (xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay5 x0 xs1 x6 x7 x8 x9) ∗ owns (c : Thread nD τ) arg13 fullShare (k0_pay4 x0 xs1) ∗ owns (c : Thread nD τ) arg14 fullShare xs0 ∗ owns (c : Thread nD τ) arg15 fullShare xs1) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    rw [View.read_writes_eq_canon _ _ _ (fun y => ⟨_, List.mem_singleton_self _, View.mem_set_unit_zero hz2 inb_S400x64_S400x64_0_0 y⟩), View.canon_unit_zero hz2]
    simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]
  isplitl [H11]
  · iexists _; isplitr; swap; · iexact H11
    ipureintro
    rw [View.read_writes_eq_canon _ _ _ (fun y => ⟨_, List.mem_singleton_self _, View.mem_set_unit_zero hz2 inb_S400x64_S400x64_0_0 y⟩), View.canon_unit_zero hz2]
    simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S400x10000) hz2, View.ld_unit_zero (S := S10000x128) hz2, View.ld_unit_zero (S := S10000x64) hz2, View.ld_unit_zero (S := S128x128) hz2, View.ld_unit_zero (S := S1x128) hz2, View.ld_unit_zero (S := S128x64) hz2, View.ld_unit_zero (S := S1x64) hz2, View.ld_unit_zero (S := S64x64) hz2, View.ld_unit_zero (S := S400x64) hz2]
  isplitl [HS0]
  · iexists _; isplitr; · ipureintro; exact harg14.read_unread _
    iexact HS0
  iexists _; isplitr; · ipureintro; exact harg15.read_unread _
  iexact HS1

end Cert.KernelIdeal.Hand

end
-- ==== Proof.KIData.lean ====
/-
  The pipeline's proof data with every content named, the body obligation, and the run.

  Named contents. p1 is what the first point stores into the first scratch buffer: `k0_pay1` of the (whole) blocks
  of x, W1ᵀ and b1. Block t of h2 (t < 25) is what point t stores into rows [400 t, 400 t + 400) of the second
  scratch buffer: `k0_pay3` of the point's rows of Adj, p1, W2ᵀ and b2; h2 itself is the 10000 × 64 array whose row n
  is row n mod 400 of block n / 400. After point t of phase 1 the first output window holds `k0_pay5` and the second
  `k0_pay4` of the point's rows of Adj and h2 (and the projection head's weights).

  The invariant between points: before the first point the scratch buffers hold anything; after point n the first
  holds p1 and the second holds SOME contents that agree with h2 on the rows below 400 (n + 1) — so from the end of
  phase 0 on it is h2. The output windows are idle through phase 0 (the body hands them back as it found them) and
  are stored whole at every point of phase 1.
-/
import proofs.«104239_g652835029058_cont_9to1_m_690_12_alg».proof.Proof.KIRunA
import proofs.«104239_g652835029058_cont_9to1_m_690_12_alg».proof.Proof.KIRunB
import proofs.«104239_g652835029058_cont_9to1_m_690_12_alg».proof.Proof.KIRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 eq_ix2 idx2_lt0)

variable (m : (ℓ : Loc nD τ sig) → Buf (Elt F) ℓ) (ρ : Dev nD → PrngReg)

theorem lt50 (t : Fin cfg0.N) : t.val < 50 := lt_of_lt_of_eq t.isLt (show cfg0.N = 50 from N_0)

/-- The first grid point. -/
def t0 : Fin cfg0.N := ⟨0, lt_of_lt_of_eq (by decide : 0 < 50) (show cfg0.N = 50 from N_0).symm⟩

/-! ## The named contents -/

/-- p1, as the first point computes it. -/
def P1 (c : Dev nD) : Vec F S10000x128 .bf16 := k0_pay1 (iblk m c 1 t0) (iblk m c 2 t0) (iblk m c 3 t0)

/-- Block t of h2, as point t of phase 0 computes it. -/
def H2blk (c : Dev nD) (t : Fin cfg0.N) : Vec F S400x64 .bf16 := k0_pay3 (iblk m c 0 t) (P1 m c) (iblk m c 4 t) (iblk m c 5 t)

/-- h2: row n is row n mod 400 of block n / 400. -/
def H2 (c : Dev nD) : Vec F S10000x64 .bf16 := fun j =>
  H2blk m c ⟨(j 0).val / 400, lt_of_lt_of_eq (by have := idx2_lt0 j; omega) (show cfg0.N = 50 from N_0).symm⟩
    (ix2 ⟨(j 0).val % 400, Nat.mod_lt _ (by decide)⟩ (j 1))

/-- Row 400 t + r of h2 is row r of block t. -/
theorem H2_at (c : Dev nD) (t : Fin cfg0.N) (r : Fin 400) (n : Fin 10000) (e : Fin 64) (hn : n.val = 400 * t.val + r.val) :
    H2 m c (ix2 n e) = H2blk m c t (ix2 r e) := by
  have hr : r.val < 400 := r.isLt
  have e1 : n.val / 400 = t.val := by omega
  have e2 : n.val % 400 = r.val := by omega
  unfold H2
  exact congrArg₂ (fun (a : Fin cfg0.N) (b : Fin 400) => H2blk m c a (ix2 b e)) (Fin.ext e1) (Fin.ext e2)

/-! ## The invariant between points -/

/-- Before point `n`: at the start the class invariant (both scratch buffers at anything); afterwards the first at
    p1 and the second at contents that agree with h2 below row 400 n. -/
def PhiS (c : Dev nD) : (n : ℕ) → n ≤ cfg0.N → sProp 𝕄
  | 0, _ => Pipeline.ΦA spec0 c
  | n + 1, _ => iprop(iprop(owns (c : Thread nD τ) scP fullShare (P1 m c) ∗ (∃ h, owns (c : Thread nD τ) scH fullShare h ∗ ⌜∀ (a : Fin 10000) (e : Fin 64), a.val < 400 * (n + 1) → h (ix2 a e) = H2 m c (ix2 a e)⌝)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scP fullShare (P1 m c) ∗ (∃ h, owns (c : Thread nD τ) scH fullShare h ∗ ⌜∀ (a : Fin 10000) (e : Fin 64), a.val < 400 * (n + 1) → h (ix2 a e) = H2 m c (ix2 a e)⌝)) ∗ (∃ r, prngReg c r)) := rfl

theorem PhiS_pos (c : Dev nD) (n : ℕ) (h : n ≤ cfg0.N) (hz : n ≠ 0) :
    PhiS m c n h = iprop(iprop(owns (c : Thread nD τ) scP fullShare (P1 m c) ∗ (∃ h, owns (c : Thread nD τ) scH fullShare h ∗ ⌜∀ (a : Fin 10000) (e : Fin 64), a.val < 400 * (n - 1 + 1) → h (ix2 a e) = H2 m c (ix2 a e)⌝)) ∗ (∃ r, prngReg c r)) := by
  cases n with
  | zero => exact absurd rfl hz
  | succ n => rfl

/-! ## The proof data -/

/-- The proof data of the pipeline on core `c`: the arrays as the region finds them; after the body at point `t`
    each input's buffer at its block, the first output's at the projection head of the point's block of emb and the
    second's at that block (consulted only in phase 1, where the outputs are live); the invariant `PhiS`; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay5 (iblk m c 0 t) (H2 m c) (iblk m c 6 t) (iblk m c 7 t) (iblk m c 8 t) (iblk m c 9 t)
    | ⟨11, _⟩ => k0_pay4 (iblk m c 0 t) (H2 m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) :
    (dats m 0 c).after 10 t = k0_pay5 (iblk m c 0 t) (H2 m c) (iblk m c 6 t) (iblk m c 7 t) (iblk m c 8 t) (iblk m c 9 t) := by dsimp only [dats]
theorem after_11 (c : Dev nD) (t : Fin cfg0.N) : (dats m 0 c).after 11 t = k0_pay4 (iblk m c 0 t) (H2 m c) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at any point: the closed forms of the three conditions say which case the point is in; the invariant
    hands the run the scratch buffers at what the point before left and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 50 := lt50 t
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [show (dats m 0 c).leavesExact 7 t = owns (c : Thread nD τ) (ms7 t) fullShare ((dats m 0 c).after 7 t) from by
    unfold Dat.leavesExact; rw [live7 t], after_7]
  rw [show (dats m 0 c).leavesExact 8 t = owns (c : Thread nD τ) (ms8 t) fullShare ((dats m 0 c).after 8 t) from by
    unfold Dat.leavesExact; rw [live8 t], after_8]
  rw [show (dats m 0 c).leavesExact 9 t = owns (c : Thread nD τ) (ms9 t) fullShare ((dats m 0 c).after 9 t) from by
    unfold Dat.leavesExact; rw [live9 t], after_9]
  by_cases h1 : t.val < 25
  · -- phase 0: the outputs are idle
    rw [(dats m 0 c).leavesExact_idle 10 t ((idle10_iff t).mpr h1) (Bool.eq_false_iff.mpr fun h => absurd ((flush10_iff t).mp h) (by omega))]
    rw [(dats m 0 c).leavesExact_idle 11 t ((idle11_iff t).mpr h1) (Bool.eq_false_iff.mpr fun h => absurd ((flush11_iff t).mp h) (by omega))]
    by_cases hz : t.val = 0
    · -- case A: the first point
      obtain rfl : t = t0 := Fin.ext hz
      rw [PhiS_castSucc m c t0, PhiS_zero m c _ _ hz, PhiA_eq]
      iintro ⟨⟨⟨⟨%dP, HS0⟩, ⟨%dH, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t0) _ _ _ _ _ _ _ _ _ _ _ _ _ _ _ _ _ _ _ _ _ _ _ _ _ _ _ _ ((condFirst_iff t0).mpr hz) ((condP0_iff t0).mpr h1) (fun h => absurd ((condP1_iff t0).mp h) (by omega)) (iblk m c 0 t0) (iblk m c 1 t0) (iblk m c 2 t0) (iblk m c 3 t0) (iblk m c 4 t0) (iblk m c 5 t0) (iblk m c 6 t0) (iblk m c 7 t0) (iblk m c 8 t0) (iblk m c 9 t0) _ _ dH Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]; · iexact HS0
          iexists _; isplitl [HS1]; · iexact HS1
          ipureintro
          intro a e ha
          rw [h2Store_in t0 h1 _ _ _ _ a e ⟨a.val, by omega⟩ (by rw [hz]; simp)]
          exact (H2_at m c t0 ⟨a.val, by omega⟩ a e (by rw [hz]; simp)).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · -- case B: a later point of phase 0
      rw [PhiS_castSucc m c t, PhiS_pos m c _ _ hz]
      iintro ⟨⟨⟨HS0, ⟨%h, HS1, %hh⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB c (grid0.coords t) _ _ _ _ _ _ _ _ _ _ _ _ _ _ _ _ _ _ _ _ _ _ _ _ _ _ _ _ (fun h => hz ((condFirst_iff t).mp h)) ((condP0_iff t).mpr h1) (fun h => absurd ((condP1_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) _ _ (P1 m c) h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]; · iexact HS0
          iexists _; isplitl [HS1]; · iexact HS1
          ipureintro
          intro a e ha
          by_cases hlt : a.val < 400 * t.val
          · rw [h2Store_out t h1 _ _ _ _ a e (Or.inl hlt)]
            exact hh a e (by omega)
          · rw [h2Store_in t h1 _ _ _ _ a e ⟨a.val - 400 * t.val, by omega⟩ (by simp only; omega)]
            exact (H2_at m c t ⟨a.val - 400 * t.val, by omega⟩ a e (by simp only; omega)).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · -- case C: phase 1, the outputs are live
    have hz : t.val ≠ 0 := by omega
    rw [show (dats m 0 c).leavesExact 10 t = owns (c : Thread nD τ) (ms10 t) fullShare ((dats m 0 c).after 10 t) from by
      unfold Dat.leavesExact; rw [Bool.eq_false_iff.mpr fun h => absurd ((idle10_iff t).mp h) (by omega)], after_10]
    rw [show (dats m 0 c).leavesExact 11 t = owns (c : Thread nD τ) (ms11 t) fullShare ((dats m 0 c).after 11 t) from by
      unfold Dat.leavesExact; rw [Bool.eq_false_iff.mpr fun h => absurd ((idle11_iff t).mp h) (by omega)], after_11]
    rw [PhiS_castSucc m c t, PhiS_pos m c _ _ hz]
    iintro ⟨⟨⟨HS0, ⟨%h, HS1, %hh⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl : h = H2 m c := funext fun j => by
      obtain ⟨a, e, rfl⟩ : ∃ (a : Fin 10000) (e : Fin 64), j = ix2 a e := ⟨j 0, j 1, eq_ix2 j⟩
      exact hh a e (by have := a.isLt; omega)
    iapply (runC c (grid0.coords t) _ _ _ _ _ _ _ _ _ _ _ _ _ _ _ _ _ _ _ _ _ _ _ _ _ _ _ _ (fun h => hz ((condFirst_iff t).mp h)) (fun h => h1 ((condP0_iff t).mp h)) ((condP1_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (P1 m c) (H2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]; · iexact HS0
        iexists _; isplitl [HS1]; · iexact HS1
        ipureintro
        intro a e _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HS0, ⟨%h, HS1, -⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has each array of the pipeline at what
    the proof data compute for it (an input as it was, an output overwritten block by block by what the body left at
    each write-back) and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => by unfold Pipeline.Dat.share; split <;> rfl)
    (howed := fun _ _ => rfl) (V := V m) (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.KIBlocks.lean ====
/-
  The input windows' blocks at a grid point, read at one entry, at the ideal values.

  Window 0 stages the point's 400 rows of Adj (rows 400 i … 400 i + 399 at block i = t mod 25); every other input
  window stages its whole array at every point. Windows 2, 4, 6, 8 are the transposed weights and windows 3, 5, 7, 9
  the biases recast as one-row matrices, which the host computes before the region: so their entries are the
  argument arrays' with the coordinates exchanged, or at the column.
-/
import proofs.«104239_g652835029058_cont_9to1_m_690_12_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD) (t : Fin cfg0.N)

/-- Each input window's block at point t, at its literal type. -/
abbrev b0 : FVec Ideal S400x10000 .f32 := iblk m c 0 t
abbrev b1 : FVec Ideal S10000x128 .f32 := iblk m c 1 t
abbrev b2 : FVec Ideal S128x128 .f32 := iblk m c 2 t
abbrev b3 : FVec Ideal S1x128 .f32 := iblk m c 3 t
abbrev b4 : FVec Ideal S128x64 .f32 := iblk m c 4 t
abbrev b5 : FVec Ideal S1x64 .f32 := iblk m c 5 t
abbrev b6 : FVec Ideal S64x64 .f32 := iblk m c 6 t
abbrev b7 : FVec Ideal S1x64 .f32 := iblk m c 7 t
abbrev b8 : FVec Ideal S64x64 .f32 := iblk m c 8 t
abbrev b9 : FVec Ideal S1x64 .f32 := iblk m c 9 t

/-! ## The index maps over the grid

Window 0's block index at point t is (t mod 25, 0); every other input window's is (0, 0) at every point. -/

theorem idx0 : ∀ t : Fin cfg0.N, win0_0.index t (0 : Fin 2) = t.val % 25 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-! ## The blocks

An element of a block sits in the staged array, on each axis, at block index × block size + its own coordinate. -/

/-- Adj's rows at the point's block. -/
theorem b0_apply (r : Fin 400) (k : Fin 10000) (n : Fin 10000) (hn : n.val = 400 * (t.val % 25) + r.val) :
    b0 m c t (ix2 r k) = m ((c : Thread nD τ).loc main_arg1) (ix2 n k) := by
  show V m c main_arg1 (((cfg0.win 0).blk t).view.emb (ix2 r k)) = _
  rw [V_main_arg1]
  obtain ⟨e0, e1⟩ := idx0 t
  refine congrArg _ (funext fun a => Fin.ext ?_)
  match a with
  | ⟨0, _⟩ => show win0_0.index t (0 : Fin 2) * 400 + 1 * r.val = n.val; omega
  | ⟨1, _⟩ => show win0_0.index t (1 : Fin 2) * 10000 + 1 * k.val = k.val; omega

/-- x, whole. -/
theorem b1_apply (n : Fin 10000) (k : Fin 128) : b1 m c t (ix2 n k) = m ((c : Thread nD τ).loc main_arg0) (ix2 n k) := by
  show V m c main_arg0 (((cfg0.win 1).blk t).view.emb (ix2 n k)) = _
  rw [V_main_arg0]
  obtain ⟨e0, e1⟩ := idx1 t
  refine congrArg _ (funext fun a => Fin.ext ?_)
  match a with
  | ⟨0, _⟩ => show win0_1.index t (0 : Fin 2) * 10000 + 1 * n.val = n.val; omega
  | ⟨1, _⟩ => show win0_1.index t (1 : Fin 2) * 128 + 1 * k.val = k.val; omega

/-- The array window 2 stages is the host's transpose of the argument. -/
theorem V_main_v0 : (V m c main_v0 : S128x128.Idx → EReal) = transpose S128x128 [1, 0] (m ((c : Thread nD τ).loc main_arg2)) Facts₀.transposes_S128x128_S128x128_1_0 := by
  dsimp only [Gen.V, Gen.hostOps0]; after_results

/-- W1 transposed. -/
theorem b2_apply (k : Fin 128) (j : Fin 128) : b2 m c t (ix2 k j) = m ((c : Thread nD τ).loc main_arg2) (ix2 j k) := by
  show V m c main_v0 (((cfg0.win 2).blk t).view.emb (ix2 k j)) = _
  obtain ⟨e0, e1⟩ := idx2 t
  have hemb : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  rw [hemb]
  refine (congrFun (V_main_v0 m c) (ix2 k j)).trans ?_
  -- the transpose exchanges the two coordinates
  refine Idealize.ShloMosaic.transpose_apply _ _ _ _ _ ?_
  intro b
  match b with
  | ⟨0, _⟩ => rfl
  | ⟨1, _⟩ => rfl

/-- The array window 3 stages is the host's recast of the argument vector as a one-row matrix. -/
theorem V_main_v4 : (V m c main_v4 : S1x128.Idx → EReal) = shapeCast S1x128 (m ((c : Thread nD τ).loc main_arg3)) Facts₀.shapeCasts_S128_S1x128 := by
  dsimp only [Gen.V, Gen.hostOps0]; after_results
  rfl

/-- b1 as a row. -/
theorem b3_apply (j : Fin 128) : b3 m c t (ix2 (0 : Fin 1) j) = m ((c : Thread nD τ).loc main_arg3) (ix1 j) := by
  show V m c main_v4 (((cfg0.win 3).blk t).view.emb (ix2 (0 : Fin 1) j)) = _
  obtain ⟨e0, e1⟩ := idx3 t
  have hemb : ((cfg0.win 3).blk t).view.emb (ix2 (0 : Fin 1) j) = ix2 (0 : Fin 1) j := by
    funext a; apply Fin.ext
    match a with
    | ⟨0, _⟩ => show win0_3.index t (0 : Fin 2) * 1 + 1 * (0 : Fin 1).val = (0 : Fin 1).val; omega
    | ⟨1, _⟩ => show win0_3.index t (1 : Fin 2) * 128 + 1 * j.val = j.val; omega
  rw [hemb]
  refine (congrFun (V_main_v4 m c) (ix2 (0 : Fin 1) j)).trans ?_
  -- entry (0, j) of the row and entry j of the vector have the same row-major position: 0 * 128 + j = j
  refine Idealize.ShloMosaic.shapeCast_apply _ _ _ _ ?_
  refine (Shape.rowMajor_val_one (d := ![128]) (ix1 j)).trans ?_
  refine Eq.trans ?_ (Shape.rowMajor_val_two (d := ![1, 128]) (ix2 (0 : Fin 1) j)).symm
  show j.val = (0 : Fin 1).val * 128 + j.val
  simp

/-- The array window 4 stages is the host's transpose of the argument. -/
theorem V_main_v1 : (V m c main_v1 : S128x64.Idx → EReal) = transpose S128x64 [1, 0] (m ((c : Thread nD τ).loc main_arg4)) Facts₀.transposes_S64x128_S128x64_1_0 := by
  dsimp only [Gen.V, Gen.hostOps0]; after_results

/-- W2 transposed. -/
theorem b4_apply (j : Fin 128) (e : Fin 64) : b4 m c t (ix2 j e) = m ((c : Thread nD τ).loc main_arg4) (ix2 e j) := by
  show V m c main_v1 (((cfg0.win 4).blk t).view.emb (ix2 j e)) = _
  obtain ⟨e0, e1⟩ := idx4 t
  have hemb : ((cfg0.win 4).blk t).view.emb (ix2 j e) = ix2 j e := by
    funext a; apply Fin.ext
    match a with
    | ⟨0, _⟩ => show win0_4.index t (0 : Fin 2) * 128 + 1 * j.val = j.val; omega
    | ⟨1, _⟩ => show win0_4.index t (1 : Fin 2) * 64 + 1 * e.val = e.val; omega
  rw [hemb]
  refine (congrFun (V_main_v1 m c) (ix2 j e)).trans ?_
  -- the transpose exchanges the two coordinates
  refine Idealize.ShloMosaic.transpose_apply _ _ _ _ _ ?_
  intro b
  match b with
  | ⟨0, _⟩ => rfl
  | ⟨1, _⟩ => rfl

/-- The array window 5 stages is the host's recast of the argument vector as a one-row matrix. -/
theorem V_main_v5 : (V m c main_v5 : S1x64.Idx → EReal) = shapeCast S1x64 (m ((c : Thread nD τ).loc main_arg5)) Facts₀.shapeCasts_S64_S1x64 := by
  dsimp only [Gen.V, Gen.hostOps0]; after_results
  rfl

/-- b2 as a row. -/
theorem b5_apply (e : Fin 64) : b5 m c t (ix2 (0 : Fin 1) e) = m ((c : Thread nD τ).loc main_arg5) (ix1 e) := by
  show V m c main_v5 (((cfg0.win 5).blk t).view.emb (ix2 (0 : Fin 1) e)) = _
  obtain ⟨e0, e1⟩ := idx5 t
  have hemb : ((cfg0.win 5).blk t).view.emb (ix2 (0 : Fin 1) e) = ix2 (0 : Fin 1) e := by
    funext a; apply Fin.ext
    match a with
    | ⟨0, _⟩ => show win0_5.index t (0 : Fin 2) * 1 + 1 * (0 : Fin 1).val = (0 : Fin 1).val; omega
    | ⟨1, _⟩ => show win0_5.index t (1 : Fin 2) * 64 + 1 * e.val = e.val; omega
  rw [hemb]
  refine (congrFun (V_main_v5 m c) (ix2 (0 : Fin 1) e)).trans ?_
  -- entry (0, e) of the row and entry e of the vector have the same row-major position: 0 * 64 + e = e
  refine Idealize.ShloMosaic.shapeCast_apply _ _ _ _ ?_
  refine (Shape.rowMajor_val_one (d := ![64]) (ix1 e)).trans ?_
  refine Eq.trans ?_ (Shape.rowMajor_val_two (d := ![1, 64]) (ix2 (0 : Fin 1) e)).symm
  show e.val = (0 : Fin 1).val * 64 + e.val
  simp

/-- The array window 6 stages is the host's transpose of the argument. -/
theorem V_main_v2 : (V m c main_v2 : S64x64.Idx → EReal) = transpose S64x64 [1, 0] (m ((c : Thread nD τ).loc main_arg6)) Facts₀.transposes_S64x64_S64x64_1_0 := by
  dsimp only [Gen.V, Gen.hostOps0]; after_results

/-- Wp1 transposed. -/
theorem b6_apply (e : Fin 64) (q : Fin 64) : b6 m c t (ix2 e q) = m ((c : Thread nD τ).loc main_arg6) (ix2 q e) := by
  show V m c main_v2 (((cfg0.win 6).blk t).view.emb (ix2 e q)) = _
  obtain ⟨e0, e1⟩ := idx6 t
  have hemb : ((cfg0.win 6).blk t).view.emb (ix2 e q) = ix2 e q := by
    funext a; apply Fin.ext
    match a with
    | ⟨0, _⟩ => show win0_6.index t (0 : Fin 2) * 64 + 1 * e.val = e.val; omega
    | ⟨1, _⟩ => show win0_6.index t (1 : Fin 2) * 64 + 1 * q.val = q.val; omega
  rw [hemb]
  refine (congrFun (V_main_v2 m c) (ix2 e q)).trans ?_
  -- the transpose exchanges the two coordinates
  refine Idealize.ShloMosaic.transpose_apply _ _ _ _ _ ?_
  intro b
  match b with
  | ⟨0, _⟩ => rfl
  | ⟨1, _⟩ => rfl

/-- The array window 7 stages is the host's recast of the argument vector as a one-row matrix. -/
theorem V_main_v6 : (V m c main_v6 : S1x64.Idx → EReal) = shapeCast S1x64 (m ((c : Thread nD τ).loc main_arg7)) Facts₀.shapeCasts_S64_S1x64 := by
  dsimp only [Gen.V, Gen.hostOps0]; after_results
  rfl

/-- bp1 as a row. -/
theorem b7_apply (q : Fin 64) : b7 m c t (ix2 (0 : Fin 1) q) = m ((c : Thread nD τ).loc main_arg7) (ix1 q) := by
  show V m c main_v6 (((cfg0.win 7).blk t).view.emb (ix2 (0 : Fin 1) q)) = _
  obtain ⟨e0, e1⟩ := idx7 t
  have hemb : ((cfg0.win 7).blk t).view.emb (ix2 (0 : Fin 1) q) = ix2 (0 : Fin 1) q := by
    funext a; apply Fin.ext
    match a with
    | ⟨0, _⟩ => show win0_7.index t (0 : Fin 2) * 1 + 1 * (0 : Fin 1).val = (0 : Fin 1).val; omega
    | ⟨1, _⟩ => show win0_7.index t (1 : Fin 2) * 64 + 1 * q.val = q.val; omega
  rw [hemb]
  refine (congrFun (V_main_v6 m c) (ix2 (0 : Fin 1) q)).trans ?_
  -- entry (0, q) of the row and entry q of the vector have the same row-major position: 0 * 64 + q = q
  refine Idealize.ShloMosaic.shapeCast_apply _ _ _ _ ?_
  refine (Shape.rowMajor_val_one (d := ![64]) (ix1 q)).trans ?_
  refine Eq.trans ?_ (Shape.rowMajor_val_two (d := ![1, 64]) (ix2 (0 : Fin 1) q)).symm
  show q.val = (0 : Fin 1).val * 64 + q.val
  simp

/-- The array window 8 stages is the host's transpose of the argument. -/
theorem V_main_v3 : (V m c main_v3 : S64x64.Idx → EReal) = transpose S64x64 [1, 0] (m ((c : Thread nD τ).loc main_arg8)) Facts₀.transposes_S64x64_S64x64_1_0 := by
  dsimp only [Gen.V, Gen.hostOps0]; after_results

/-- Wp2 transposed. -/
theorem b8_apply (q : Fin 64) (p : Fin 64) : b8 m c t (ix2 q p) = m ((c : Thread nD τ).loc main_arg8) (ix2 p q) := by
  show V m c main_v3 (((cfg0.win 8).blk t).view.emb (ix2 q p)) = _
  obtain ⟨e0, e1⟩ := idx8 t
  have hemb : ((cfg0.win 8).blk t).view.emb (ix2 q p) = ix2 q p := by
    funext a; apply Fin.ext
    match a with
    | ⟨0, _⟩ => show win0_8.index t (0 : Fin 2) * 64 + 1 * q.val = q.val; omega
    | ⟨1, _⟩ => show win0_8.index t (1 : Fin 2) * 64 + 1 * p.val = p.val; omega
  rw [hemb]
  refine (congrFun (V_main_v3 m c) (ix2 q p)).trans ?_
  -- the transpose exchanges the two coordinates
  refine Idealize.ShloMosaic.transpose_apply _ _ _ _ _ ?_
  intro b
  match b with
  | ⟨0, _⟩ => rfl
  | ⟨1, _⟩ => rfl

/-- The array window 9 stages is the host's recast of the argument vector as a one-row matrix. -/
theorem V_main_v7 : (V m c main_v7 : S1x64.Idx → EReal) = shapeCast S1x64 (m ((c : Thread nD τ).loc main_arg9)) Facts₀.shapeCasts_S64_S1x64 := by
  dsimp only [Gen.V, Gen.hostOps0]; after_results
  rfl

/-- bp2 as a row. -/
theorem b9_apply (p : Fin 64) : b9 m c t (ix2 (0 : Fin 1) p) = m ((c : Thread nD τ).loc main_arg9) (ix1 p) := by
  show V m c main_v7 (((cfg0.win 9).blk t).view.emb (ix2 (0 : Fin 1) p)) = _
  obtain ⟨e0, e1⟩ := idx9 t
  have hemb : ((cfg0.win 9).blk t).view.emb (ix2 (0 : Fin 1) p) = ix2 (0 : Fin 1) p := by
    funext a; apply Fin.ext
    match a with
    | ⟨0, _⟩ => show win0_9.index t (0 : Fin 2) * 1 + 1 * (0 : Fin 1).val = (0 : Fin 1).val; omega
    | ⟨1, _⟩ => show win0_9.index t (1 : Fin 2) * 64 + 1 * p.val = p.val; omega
  rw [hemb]
  refine (congrFun (V_main_v7 m c) (ix2 (0 : Fin 1) p)).trans ?_
  -- entry (0, p) of the row and entry p of the vector have the same row-major position: 0 * 64 + p = p
  refine Idealize.ShloMosaic.shapeCast_apply _ _ _ _ ?_
  refine (Shape.rowMajor_val_one (d := ![64]) (ix1 p)).trans ?_
  refine Eq.trans ?_ (Shape.rowMajor_val_two (d := ![1, 64]) (ix2 (0 : Fin 1) p)).symm
  show p.val = (0 : Fin 1).val * 64 + p.val
  simp

end Cert.KernelIdeal.Blocks

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KIPayApply.lean ====
/-
  The body's five stored values, read at one entry, at the ideal values.

  Every product in the body contracts the left operand's columns with the right operand's rows into a zero
  accumulator, so an entry is the plain sum over the shared axis; a bias row is broadcast down the rows; the
  rectification is a maximum with the zero word, which denotes 0; the changes of float format are the identity.
-/
import proofs.«104239_g652835029058_cont_9to1_m_690_12_alg».proof.Proof.Gen.KernelIdeal.Skeleton
import proofs.«104239_g652835029058_cont_9to1_m_690_12_alg».proof.Proof.LibDotRowsCols
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayApply

open Idealize.ShloMosaic Idealize.ShloMosaic.ValueIdx
open Cert.KernelIdeal Cert.KernelIdeal.Gen
open Cert.Lib.DotRowsCols

/-! ## The five products' dimension numbers are rows-by-columns -/

theorem rc_x_w : RowsCols dot_S10000x128_S128x128_S10000x128_1_0_0_1_n_n := ⟨rfl, rfl, rfl, rfl, rfl, rfl⟩
theorem rc_a_p : RowsCols dot_S400x10000_S10000x128_S400x128_1_0_0_1_n_n := ⟨rfl, rfl, rfl, rfl, rfl, rfl⟩
theorem rc_g_w : RowsCols dot_S400x128_S128x64_S400x64_1_0_0_1_n_n := ⟨rfl, rfl, rfl, rfl, rfl, rfl⟩
theorem rc_a_h : RowsCols dot_S400x10000_S10000x64_S400x64_1_0_0_1_n_n := ⟨rfl, rfl, rfl, rfl, rfl, rfl⟩
theorem rc_e_w : RowsCols dot_S400x64_S64x64_S400x64_1_0_0_1_n_n := ⟨rfl, rfl, rfl, rfl, rfl, rfl⟩

/-- p1's stored value:  x · w + b  (w the transposed weight as staged, b the bias as a 1 × 128 row). -/
theorem pay1_apply (x : FVec Ideal S10000x128 .f32) (w : FVec Ideal S128x128 .f32) (b : FVec Ideal S1x128 .f32)
    (n : Fin 10000) (j : Fin 128) :
    k0_pay1 (F := Ideal) x w b (ix2 n j) = (∑ k : Fin 128, x (ix2 n k) * w (ix2 k j)) + b (ix2 (0 : Fin 1) j) := by
  unfold k0_pay1
  refine (congrFun (shapeCast_self _ _) (ix2 n j)).trans ?_
  refine (truncf_apply (φ := .f32) (ψ := .bf16) _ _ _).trans ?_
  refine (addf_apply (φ := .f32) _ _ _).trans ?_
  refine congrArg₂ (· + ·) ?_ ?_
  · rw [shapeCast_self]
    exact (rc_x_w.matmul_zero_apply none x w (ix2 n j)).trans (Finset.sum_congr rfl fun k _ => rfl)
  · rw [shapeCast_self]
    exact broadcastTo_1b_ab_apply b _ n j

/-- The slice of h2 a point of phase 0 stores:  relu(a · p) · w + b. -/
theorem pay3_apply (a : FVec Ideal S400x10000 .f32) (p : FVec Ideal S10000x128 .bf16) (w : FVec Ideal S128x64 .f32)
    (b : FVec Ideal S1x64 .f32) (r : Fin 400) (e : Fin 64) :
    k0_pay3 (F := Ideal) a p w b (ix2 r e)
      = (∑ j : Fin 128, max (∑ k : Fin 10000, a (ix2 r k) * p (ix2 k j)) 0 * w (ix2 j e)) + b (ix2 (0 : Fin 1) e) := by
  unfold k0_pay3
  refine (congrFun (shapeCast_self _ _) (ix2 r e)).trans ?_
  refine (truncf_apply (φ := .f32) (ψ := .bf16) _ _ _).trans ?_
  refine (addf_apply (φ := .f32) _ _ _).trans ?_
  refine congrArg₂ (· + ·) ?_ ?_
  · rw [shapeCast_self]
    refine (rc_g_w.matmul_zero_apply none _ w (ix2 r e)).trans ?_
    refine Finset.sum_congr rfl fun j _ => ?_
    refine congrArg (· * w (ix2 j e)) ?_
    refine (maximumf_apply (φ := .f32) _ _ _).trans ?_
    refine congrArg₂ max ?_ ?_
    · exact (rc_a_p.matmul_zero_apply none (k0_pay2 (F := Ideal) a) p (ix2 r j)).trans
        (Finset.sum_congr rfl fun k _ => rfl)
    · exact Ideal.ofBits_zero_f32
  · rw [shapeCast_self]
    exact broadcastTo_1b_ab_apply b _ r e

/-- The block of emb a point of phase 1 stores:  a · h. -/
theorem pay4_apply (a : FVec Ideal S400x10000 .f32) (h : FVec Ideal S10000x64 .bf16) (r : Fin 400) (e : Fin 64) :
    k0_pay4 (F := Ideal) a h (ix2 r e) = ∑ k : Fin 10000, a (ix2 r k) * h (ix2 k e) := by
  unfold k0_pay4
  refine (rc_a_h.matmul_zero_apply none (k0_pay2 (F := Ideal) a) h (ix2 r e)).trans ?_
  exact Finset.sum_congr rfl fun k _ => rfl

/-- The block of z a point of phase 1 stores:  relu((a · h) · w6 + b7) · w8 + b9. -/
theorem pay5_apply (a : FVec Ideal S400x10000 .f32) (h : FVec Ideal S10000x64 .bf16) (w6 : FVec Ideal S64x64 .f32)
    (b7 : FVec Ideal S1x64 .f32) (w8 : FVec Ideal S64x64 .f32) (b9 : FVec Ideal S1x64 .f32) (r : Fin 400) (p : Fin 64) :
    k0_pay5 (F := Ideal) a h w6 b7 w8 b9 (ix2 r p)
      = (∑ q : Fin 64, max ((∑ e : Fin 64, (∑ k : Fin 10000, a (ix2 r k) * h (ix2 k e)) * w6 (ix2 e q)) + b7 (ix2 (0 : Fin 1) q)) 0
            * w8 (ix2 q p)) + b9 (ix2 (0 : Fin 1) p) := by
  unfold k0_pay5
  refine (addf_apply (φ := .f32) _ _ _).trans ?_
  refine congrArg₂ (· + ·) ?_ ?_
  · refine (rc_e_w.matmul_zero_apply none _ _ (ix2 r p)).trans ?_
    refine Finset.sum_congr rfl fun q _ => ?_
    refine congrArg₂ (· * ·) ?_ (congrFun (shapeCast_self w8 _) (ix2 q p))
    refine (maximumf_apply (φ := .f32) _ _ _).trans ?_
    refine congrArg₂ max ?_ Ideal.ofBits_zero_f32
    refine (addf_apply (φ := .f32) _ _ _).trans ?_
    refine congrArg₂ (· + ·) ?_ ?_
    · refine (rc_e_w.matmul_zero_apply none (k0_pay4 (F := Ideal) a h) _ (ix2 r q)).trans ?_
      refine Finset.sum_congr rfl fun e _ => ?_
      exact congrArg₂ (· * ·) (pay4_apply a h r e) (congrFun (shapeCast_self w6 _) (ix2 e q))
    · rw [shapeCast_self]
      exact broadcastTo_1b_ab_apply b7 _ r q
  · rw [shapeCast_self]
    exact broadcastTo_1b_ab_apply b9 _ r p

end Cert.KernelIdeal.PayApply

end
-- ==== Proof.Spec.lean ====
/-
  The function both programs compute, entry by entry, over the extended reals.

  A two-layer graph convolution over a dense adjacency with a projection head, all products exact:
      p1  = x · W1ᵀ + b1                           (10000 × 128)
      h2  = relu(Adj · p1) · W2ᵀ + b2              (10000 × 64)
      emb = Adj · h2                                (10000 × 64)
      z   = relu(emb · Wp1ᵀ + bp1) · Wp2ᵀ + bp2    (10000 × 64)
  with relu a = max a 0. Each entry is written as the plain sum over the contracted axis; a weight matrix enters
  through its transpose, so its entry is read with the two coordinates exchanged. The results are (z, emb).
-/
import Idealize.ShloMosaic.PureOps.Ideal.Laws
import Idealize.ShloMosaic.Lib.ValueIdx

noncomputable section

open scoped BigOperators

namespace Cert.Spec

open Idealize.ShloMosaic Idealize.ShloMosaic.ValueIdx

/-- An a × b array of extended reals. -/
abbrev Mat (a b : Nat) := (⟨2, ![a, b]⟩ : Shape).Idx → EReal
/-- A vector of a extended reals. -/
abbrev Row (a : Nat) := (⟨1, ![a]⟩ : Shape).Idx → EReal

variable (x : Mat 10000 128) (adj : Mat 10000 10000) (W1 : Mat 128 128) (b1 : Row 128) (W2 : Mat 64 128) (b2 : Row 64)
  (Wp1 : Mat 64 64) (bp1 : Row 64) (Wp2 : Mat 64 64) (bp2 : Row 64)

/-- The projected features: row n of x against row j of W1, plus the bias. -/
def p1 (n : Fin 10000) (j : Fin 128) : EReal :=
  (∑ k : Fin 128, x (ix2 n k) * W1 (ix2 j k)) + b1 (ix1 j)

/-- The first layer's aggregation, rectified: row n of Adj against column j of p1, then max with 0. -/
def h1 (n : Fin 10000) (j : Fin 128) : EReal :=
  max (∑ k : Fin 10000, adj (ix2 n k) * p1 x W1 b1 k j) 0

/-- The second layer's linear map: row n of h1 against row e of W2, plus the bias. -/
def h2 (n : Fin 10000) (e : Fin 64) : EReal :=
  (∑ j : Fin 128, h1 x adj W1 b1 n j * W2 (ix2 e j)) + b2 (ix1 e)

/-- The embedding: row n of Adj against column e of h2. -/
def emb (n : Fin 10000) (e : Fin 64) : EReal :=
  ∑ k : Fin 10000, adj (ix2 n k) * h2 x adj W1 b1 W2 b2 k e

/-- The projection head's hidden layer, rectified. -/
def q (n : Fin 10000) (r : Fin 64) : EReal :=
  max ((∑ e : Fin 64, emb x adj W1 b1 W2 b2 n e * Wp1 (ix2 r e)) + bp1 (ix1 r)) 0

/-- The projection head's output. -/
def z (n : Fin 10000) (p : Fin 64) : EReal :=
  (∑ r : Fin 64, q x adj W1 b1 W2 b2 Wp1 bp1 n r * Wp2 (ix2 p r)) + bp2 (ix1 p)

/-- The two results as arrays. -/
def embArr : Mat 10000 64 := fun j => emb x adj W1 b1 W2 b2 (j 0) (j 1)
def zArr : Mat 10000 64 := fun j => z x adj W1 b1 W2 b2 Wp1 bp1 Wp2 bp2 (j 0) (j 1)

theorem embArr_apply (n : Fin 10000) (e : Fin 64) : embArr x adj W1 b1 W2 b2 (ix2 n e) = emb x adj W1 b1 W2 b2 n e := by
  unfold embArr; exact congrArg₂ (emb x adj W1 b1 W2 b2) rfl rfl
theorem zArr_apply (n : Fin 10000) (p : Fin 64) :
    zArr x adj W1 b1 W2 b2 Wp1 bp1 Wp2 bp2 (ix2 n p) = z x adj W1 b1 W2 b2 Wp1 bp1 Wp2 bp2 n p := by
  unfold zArr; exact congrArg₂ (z x adj W1 b1 W2 b2 Wp1 bp1 Wp2 bp2) rfl rfl

end Cert.Spec

end
-- ==== Proof.KIValue.lean ====
/-
  What the idealized kernel leaves in its two result arrays: the specification's z and emb of the argument arrays.

  Entry by entry. The first scratch buffer's p1 is the specification's p1 (the first point's product of x with W1ᵀ
  plus the bias row). Row 400 t + r of h2 is row r of what point t of phase 0 stored, which is the specification's h2
  at that row: the point's block of Adj holds exactly rows 400 t … 400 t + 399, so its row r against p1's columns is
  the full row's sum. At point t of phase 1, with block i = t − 25, the second output window holds rows
  400 i … 400 i + 399 of Adj · h2 = emb and the first the projection head of those rows = z.
-/
import proofs.«104239_g652835029058_cont_9to1_m_690_12_alg».proof.Proof.KIData
import proofs.«104239_g652835029058_cont_9to1_m_690_12_alg».proof.Proof.KIBlocks
import proofs.«104239_g652835029058_cont_9to1_m_690_12_alg».proof.Proof.KIPayApply
import proofs.«104239_g652835029058_cont_9to1_m_690_12_alg».proof.Proof.Spec
import Idealize.ShloMosaic.Lib.Pipeline.Value
import Idealize.ShloMosaic.Lib.ValueIdx

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg) (c : Dev nD)

/-- The first scratch buffer's contents are the specification's p1. -/
theorem P1_apply (n : Fin 10000) (j : Fin 128) :
    P1 (F := Ideal) m c (ix2 n j) = Cert.Spec.p1 (m ((c.tc : Thread nD τ).loc main_arg0)) (m ((c.tc : Thread nD τ).loc main_arg2)) (m ((c.tc : Thread nD τ).loc main_arg3)) n j := by
  unfold P1
  refine (PayApply.pay1_apply _ _ _ n j).trans ?_
  unfold Cert.Spec.p1
  refine congrArg₂ (· + ·) (Finset.sum_congr rfl fun k _ => ?_) (Blocks.b3_apply m c t0 j)
  exact congrArg₂ (· * ·) (Blocks.b1_apply m c t0 n k) (Blocks.b2_apply m c t0 k j)

/-- The second scratch buffer's named contents are the specification's h2. -/
theorem H2_apply (n : Fin 10000) (e : Fin 64) :
    H2 (F := Ideal) m c (ix2 n e) = Cert.Spec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n e := by
  -- row n is row n mod 400 of the block of point n / 400, a point of phase 0
  have hn : n.val < 10000 := n.isLt
  obtain ⟨t, ht⟩ : ∃ t : Fin cfg0.N, t.val = n.val / 400 :=
    ⟨⟨n.val / 400, lt_of_lt_of_eq (by omega) (show cfg0.N = 50 from N_0).symm⟩, rfl⟩
  obtain ⟨r, hr⟩ : ∃ r : Fin 400, r.val = n.val % 400 := ⟨⟨n.val % 400, Nat.mod_lt _ (by decide)⟩, rfl⟩
  refine (H2_at m c t r n e (by omega)).trans ?_
  unfold H2blk
  refine (PayApply.pay3_apply _ _ _ _ r e).trans ?_
  unfold Cert.Spec.h2
  refine congrArg₂ (· + ·) (Finset.sum_congr rfl fun j _ => ?_) (Blocks.b5_apply m c t e)
  refine congrArg₂ (· * ·) ?_ (Blocks.b4_apply m c t j e)
  unfold Cert.Spec.h1
  refine congrArg₂ max (Finset.sum_congr rfl fun k _ => ?_) rfl
  -- the point's block of Adj holds rows 400 t …, so its row r is Adj's row n
  exact congrArg₂ (· * ·) (Blocks.b0_apply m c t r k n (by omega)) (P1_apply m c k j)

/-- What point t of phase 1 leaves in the second output window: rows 400 (t − 25) … of emb. -/
theorem after11_apply (t : Fin cfg0.N) (ht : 25 ≤ t.val) (r : Fin 400) (e : Fin 64) (n : Fin 10000)
    (hn : n.val = 400 * (t.val - 25) + r.val) :
    (k0_pay4 (F := Ideal) (iblk m c 0 t) (H2 m c) : FVec Ideal S400x64 .f32) (ix2 r e) = Cert.Spec.emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n e := by
  have hN : t.val < 50 := lt50 t
  refine (PayApply.pay4_apply _ _ r e).trans ?_
  unfold Cert.Spec.emb
  refine Finset.sum_congr rfl fun k _ => ?_
  -- at phase 1 the block index is t − 25
  exact congrArg₂ (· * ·) (Blocks.b0_apply m c t r k n (by omega)) (H2_apply m c k e)

/-- What point t of phase 1 leaves in the first output window: rows 400 (t − 25) … of z. -/
theorem after10_apply (t : Fin cfg0.N) (ht : 25 ≤ t.val) (r : Fin 400) (p : Fin 64) (n : Fin 10000)
    (hn : n.val = 400 * (t.val - 25) + r.val) :
    (k0_pay5 (F := Ideal) (iblk m c 0 t) (H2 m c) (iblk m c 6 t) (iblk m c 7 t) (iblk m c 8 t) (iblk m c 9 t) : FVec Ideal S400x64 .f32) (ix2 r p)
      = Cert.Spec.z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) n p := by
  refine (PayApply.pay5_apply _ _ _ _ _ _ r p).trans ?_
  unfold Cert.Spec.z
  refine congrArg₂ (· + ·) (Finset.sum_congr rfl fun q _ => ?_) (Blocks.b9_apply m c t p)
  refine congrArg₂ (· * ·) ?_ (Blocks.b8_apply m c t q p)
  unfold Cert.Spec.q
  refine congrArg₂ max (congrArg₂ (· + ·) (Finset.sum_congr rfl fun e _ => ?_) (Blocks.b7_apply m c t q)) rfl
  refine congrArg₂ (· * ·) ?_ (Blocks.b6_apply m c t e q)
  -- the inner sum is the second output window's entry, an entry of emb
  exact (PayApply.pay4_apply (Blocks.b0 m c t) (H2 m c) r e).symm.trans (after11_apply m c t ht r e n hn)

end Cert.KernelIdeal.HandValue

end
-- ==== Proof.KIFinal.lean ====
/-
  The two result arrays after the idealized kernel's run, whole.

  Each point t of phase 1 writes its output blocks back: rows 400 (t − 25) … 400 (t − 25) + 399 of the first and of
  the second result array, holding those rows of the specification's z and emb. The 25 blocks tile the 10000 rows and
  no other point writes back, so each result array ends as the specification's array, and the run is the frame run
  with its two outputs named.
-/
import proofs.«104239_g652835029058_cont_9to1_m_690_12_alg».proof.Proof.KIValue

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg) (c : Dev nD)

/-! ## The output windows' blocks tile the result arrays -/

/-- The first output window's block index at a point t of phase 1 is (t − 25, 0). -/
theorem idx10 : ∀ t : Fin cfg0.N, 25 ≤ t.val → win0_10.index t (0 : Fin 2) = t.val - 25 ∧ win0_10.index t (1 : Fin 2) = 0 :=
  (by decide +kernel : ∀ t : Fin grid0.N, 25 ≤ t.val → win0_10.index t (0 : Fin 2) = t.val - 25 ∧ win0_10.index t (1 : Fin 2) = 0)

/-- An index of the first result array is in point t's block iff each coordinate is in the block's range on its axis. -/
theorem mem_blk10 (t : Fin cfg0.N) (i : S10000x64.Idx) :
    i ∈ ((cfg0.win 10).blk t).view.set ↔ ∀ a : Fin 2, win0_10.index t a * S400x64.size a ≤ (i a).val ∧ (i a).val < win0_10.index t a * S400x64.size a + S400x64.size a := by
  show i ∈ ((View.whole main_v8_0).slice (win0_10.rect t)).set ↔ _
  rw [View.set_slice_whole, Rect.mem_set_unit]
  exact Iff.rfl

/-- For any proof data of the pipeline: if what every point t of phase 1 leaves in the first output window is rows
    400 (t − 25) … 400 (t − 25) + 399 of one array G, the first result array ends as G. Each such point writes its
    block back, the block is that row range of G, and row n lies in the block of point 25 + n / 400. -/
theorem arr10_of {d : Dev nD} (dat : Dat τ (Elt Ideal) Unit ℕ (UR sig nD τ) ℕ cfg0 d) (G : S10000x64.Idx → EReal)
    (hG : ∀ t : Fin cfg0.N, 25 ≤ t.val → ∀ (r : Fin 400) (e : Fin 64) (n : Fin 10000), n.val = 400 * (t.val - 25) + r.val →
      (dat.after 10 t : FVec Ideal S400x64 .f32) (ix2 r e) = G (ix2 n e)) :
    dat.arrAt 10 cfg0.N = G := by
  refine dat.arrAt_eq_of_cover 10 G (fun t hf => ?_) (fun i => ?_)
  · -- what a flushing point writes back is its block of G
    have ht : 25 ≤ t.val := (flush10_iff t).mp hf
    have hN : t.val < 50 := lt_of_lt_of_eq t.isLt (show cfg0.N = 50 from N_0)
    obtain ⟨e0, e1⟩ := idx10 t ht
    show (cfg0.win 10).cut (grid0.coords t) (dat.after 10 t) = _
    funext j
    obtain ⟨r, e, rfl⟩ : ∃ (r : Fin 400) (e : Fin 64), j = ix2 r e := ⟨j 0, j 1, eq_ix2 (n0 := 400) (n1 := 64) j⟩
    have hr : r.val < 400 := r.isLt
    show (dat.after 10 t : FVec Ideal S400x64 .f32) (ix2 r e) = G (((cfg0.win 10).blk t).view.emb (ix2 r e))
    refine (hG t ht r e ⟨400 * (t.val - 25) + r.val, by omega⟩ rfl).trans ?_
    -- the block's element (r, e) sits in the array at (block index × 400 + r, e)
    refine congrArg G (funext fun a => Fin.ext ?_)
    match a with
    | ⟨0, _⟩ => show 400 * (t.val - 25) + r.val = win0_10.index t (0 : Fin 2) * 400 + 1 * r.val; omega
    | ⟨1, _⟩ => show e.val = win0_10.index t (1 : Fin 2) * 64 + 1 * e.val; omega
  · -- row i 0 is in the block of the point 25 + (i 0) / 400, which writes back
    have hi0 : (i 0).val < 10000 := (i 0).isLt
    have hi1 : (i 1).val < 64 := (i 1).isLt
    have hlt : 25 + (i 0).val / 400 < cfg0.N := lt_of_lt_of_eq (by omega) (show cfg0.N = 50 from N_0).symm
    refine ⟨⟨25 + (i 0).val / 400, hlt⟩, (flush10_iff _).mpr (by show 25 ≤ 25 + (i 0).val / 400; omega), ?_⟩
    obtain ⟨e0, e1⟩ := idx10 ⟨25 + (i 0).val / 400, hlt⟩ (by show 25 ≤ 25 + (i 0).val / 400; omega)
    have e0' : win0_10.index ⟨25 + (i 0).val / 400, hlt⟩ (0 : Fin 2) = (i 0).val / 400 := by
      rw [e0]; show 25 + (i 0).val / 400 - 25 = _; omega
    rw [mem_blk10]
    intro a
    match a with
    | ⟨0, _⟩ => show win0_10.index ⟨25 + (i 0).val / 400, hlt⟩ (0 : Fin 2) * 400 ≤ (i 0).val ∧ (i 0).val < win0_10.index ⟨25 + (i 0).val / 400, hlt⟩ (0 : Fin 2) * 400 + 400; omega
    | ⟨1, _⟩ => show win0_10.index ⟨25 + (i 0).val / 400, hlt⟩ (1 : Fin 2) * 64 ≤ (i 1).val ∧ (i 1).val < win0_10.index ⟨25 + (i 0).val / 400, hlt⟩ (1 : Fin 2) * 64 + 64; omega

/-- The second output window's block index at a point t of phase 1 is (t − 25, 0). -/
theorem idx11 : ∀ t : Fin cfg0.N, 25 ≤ t.val → win0_11.index t (0 : Fin 2) = t.val - 25 ∧ win0_11.index t (1 : Fin 2) = 0 :=
  (by decide +kernel : ∀ t : Fin grid0.N, 25 ≤ t.val → win0_11.index t (0 : Fin 2) = t.val - 25 ∧ win0_11.index t (1 : Fin 2) = 0)

/-- An index of the second result array is in point t's block iff each coordinate is in the block's range on its axis. -/
theorem mem_blk11 (t : Fin cfg0.N) (i : S10000x64.Idx) :
    i ∈ ((cfg0.win 11).blk t).view.set ↔ ∀ a : Fin 2, win0_11.index t a * S400x64.size a ≤ (i a).val ∧ (i a).val < win0_11.index t a * S400x64.size a + S400x64.size a := by
  show i ∈ ((View.whole main_v8_1).slice (win0_11.rect t)).set ↔ _
  rw [View.set_slice_whole, Rect.mem_set_unit]
  exact Iff.rfl

/-- For any proof data of the pipeline: if what every point t of phase 1 leaves in the second output window is rows
    400 (t − 25) … 400 (t − 25) + 399 of one array G, the second result array ends as G. Each such point writes its
    block back, the block is that row range of G, and row n lies in the block of point 25 + n / 400. -/
theorem arr11_of {d : Dev nD} (dat : Dat τ (Elt Ideal) Unit ℕ (UR sig nD τ) ℕ cfg0 d) (G : S10000x64.Idx → EReal)
    (hG : ∀ t : Fin cfg0.N, 25 ≤ t.val → ∀ (r : Fin 400) (e : Fin 64) (n : Fin 10000), n.val = 400 * (t.val - 25) + r.val →
      (dat.after 11 t : FVec Ideal S400x64 .f32) (ix2 r e) = G (ix2 n e)) :
    dat.arrAt 11 cfg0.N = G := by
  refine dat.arrAt_eq_of_cover 11 G (fun t hf => ?_) (fun i => ?_)
  · -- what a flushing point writes back is its block of G
    have ht : 25 ≤ t.val := (flush11_iff t).mp hf
    have hN : t.val < 50 := lt_of_lt_of_eq t.isLt (show cfg0.N = 50 from N_0)
    obtain ⟨e0, e1⟩ := idx11 t ht
    show (cfg0.win 11).cut (grid0.coords t) (dat.after 11 t) = _
    funext j
    obtain ⟨r, e, rfl⟩ : ∃ (r : Fin 400) (e : Fin 64), j = ix2 r e := ⟨j 0, j 1, eq_ix2 (n0 := 400) (n1 := 64) j⟩
    have hr : r.val < 400 := r.isLt
    show (dat.after 11 t : FVec Ideal S400x64 .f32) (ix2 r e) = G (((cfg0.win 11).blk t).view.emb (ix2 r e))
    refine (hG t ht r e ⟨400 * (t.val - 25) + r.val, by omega⟩ rfl).trans ?_
    -- the block's element (r, e) sits in the array at (block index × 400 + r, e)
    refine congrArg G (funext fun a => Fin.ext ?_)
    match a with
    | ⟨0, _⟩ => show 400 * (t.val - 25) + r.val = win0_11.index t (0 : Fin 2) * 400 + 1 * r.val; omega
    | ⟨1, _⟩ => show e.val = win0_11.index t (1 : Fin 2) * 64 + 1 * e.val; omega
  · -- row i 0 is in the block of the point 25 + (i 0) / 400, which writes back
    have hi0 : (i 0).val < 10000 := (i 0).isLt
    have hi1 : (i 1).val < 64 := (i 1).isLt
    have hlt : 25 + (i 0).val / 400 < cfg0.N := lt_of_lt_of_eq (by omega) (show cfg0.N = 50 from N_0).symm
    refine ⟨⟨25 + (i 0).val / 400, hlt⟩, (flush11_iff _).mpr (by show 25 ≤ 25 + (i 0).val / 400; omega), ?_⟩
    obtain ⟨e0, e1⟩ := idx11 ⟨25 + (i 0).val / 400, hlt⟩ (by show 25 ≤ 25 + (i 0).val / 400; omega)
    have e0' : win0_11.index ⟨25 + (i 0).val / 400, hlt⟩ (0 : Fin 2) = (i 0).val / 400 := by
      rw [e0]; show 25 + (i 0).val / 400 - 25 = _; omega
    rw [mem_blk11]
    intro a
    match a with
    | ⟨0, _⟩ => show win0_11.index ⟨25 + (i 0).val / 400, hlt⟩ (0 : Fin 2) * 400 ≤ (i 0).val ∧ (i 0).val < win0_11.index ⟨25 + (i 0).val / 400, hlt⟩ (0 : Fin 2) * 400 + 400; omega
    | ⟨1, _⟩ => show win0_11.index ⟨25 + (i 0).val / 400, hlt⟩ (1 : Fin 2) * 64 ≤ (i 1).val ∧ (i 1).val < win0_11.index ⟨25 + (i 0).val / 400, hlt⟩ (1 : Fin 2) * 64 + 64; omega

/-! ## The frame run, read at the results and the arguments -/

/-- For any proof data whose arrays are the region-entry contents and whose two output arrays end as Z and E: a
    frame run is a run whose results are Z and E and whose argument arrays are unchanged (an input window's array is
    never written back; an array no window stages keeps its region-entry contents; no host operation writes an
    argument). -/
theorem run_of (dats : (p : Fin 1) → (c : Dev nD) → Dat τ (Elt Ideal) Unit ℕ (UR sig nD τ) ℕ (cfgs p) c)
    (hA : ∀ c w, (dats 0 c).A w = V m c (Pipeline.arrRef spec0 w))
    (Z E : Dev nD → S10000x64.Idx → EReal)
    (h10 : ∀ c, (dats 0 c).arrAt 10 cfg0.N = Z c) (h11 : ∀ c, (dats 0 c).arrAt 11 cfg0.N = E c)
    (h : θ_run defs (onTc (τ := τ) (main (F := Ideal))) (s₀ m ρ) (Pipeline.FramePost cfgs dats 0 (V m))) :
    θ_run (defs (F := Ideal)) (onTc (τ := τ) (main (F := Ideal))) ⟨m, fun _ => 0, ρ⟩ (fun r => ∀ c : Dev nD,
      r.2.mem ((c.tc : Thread nD τ).loc main_v8_0) = Z c
      ∧ r.2.mem ((c.tc : Thread nD τ).loc main_v8_1) = E c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (h10 c),
      ((h c).1 11).trans (h11 c),
      ((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The results -/

/-- The first result array after the run is the specification's z. -/
theorem final10 : (dats (F := Ideal) m 0 c).arrAt 10 cfg0.N = Cert.Spec.zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine arr10_of (dats (F := Ideal) m 0 c) _ (fun t ht r p n hn => ?_)
  refine (congrFun (Hand.after_10 m c t) (ix2 r p)).trans ?_
  refine (after10_apply m c t ht r p n hn).trans ?_
  exact (Cert.Spec.zArr_apply _ _ _ _ _ _ _ _ _ _ n p).symm

/-- The second result array after the run is the specification's emb. -/
theorem final11 : (dats (F := Ideal) m 0 c).arrAt 11 cfg0.N = Cert.Spec.embArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine arr11_of (dats (F := Ideal) m 0 c) _ (fun t ht r e n hn => ?_)
  refine (congrFun (Hand.after_11 m c t) (ix2 r e)).trans ?_
  refine (after11_apply m c t ht r e n hn).trans ?_
  exact (Cert.Spec.embArr_apply _ _ _ _ _ _ n e).symm

/-- The idealized kernel's run with its results named: every weakly fair execution terminates with the first result
    the specification's z, the second its emb, and the arguments unchanged. -/
theorem run_spec :
    θ_run (defs (F := Ideal)) (onTc (τ := τ) (main (F := Ideal))) ⟨m, fun _ => 0, ρ⟩ (fun r => ∀ c : Dev nD,
      r.2.mem ((c.tc : Thread nD τ).loc main_v8_0) = Cert.Spec.zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v8_1) = Cert.Spec.embArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  exact run_of m ρ (dats (F := Ideal) m) (A_eq m) _ _ (fun c => final10 m c) (fun c => final11 m c) (Hand.run_main (F := Ideal) m ρ)

end Cert.KernelIdeal.HandValue

end
-- ==== Proof.RefValue.lean ====
/-
  The reference's run, with its two results named: the first is the projection head z, the second the embedding
  emb, each entry the specification's sum (Spec.lean). The reference is a straight line of host operations —
  transposes of the weights, four products contracting the left operand's columns with the right operand's rows,
  bias rows broadcast down the rows, two rectifications as a maximum with the zero array — so each result is read
  one operation at a time at an index.
-/
import proofs.«104239_g652835029058_cont_9to1_m_690_12_alg».proof.Defs
import proofs.«104239_g652835029058_cont_9to1_m_690_12_alg».proof.Proof.Gen.ReferenceIdeal.Read
import proofs.«104239_g652835029058_cont_9to1_m_690_12_alg».proof.Proof.Spec
import proofs.«104239_g652835029058_cont_9to1_m_690_12_alg».proof.Proof.LibDotRowsCols

noncomputable section

open Idealize.ShloMosaic Idealize.ShloMosaic.TcCoe Idealize.SL.Sem Idealize.ShloMosaic.ValueIdx

namespace Cert.RefValue

section Stages

open Cert.ReferenceIdeal Cert.ReferenceIdeal.Gen Cert.ReferenceIdeal.Read
open scoped BigOperators

/-- Two pair indices with the same coordinates are equal. -/
theorem idx2_ext {a b : Nat} (i j : (⟨2, ![a, b]⟩ : Shape).Idx) (h0 : (i 0).val = (j 0).val)
    (h1 : (i 1).val = (j 1).val) : i = j :=
  funext fun d => Fin.ext (by match d with | ⟨0, _⟩ => exact h0 | ⟨1, _⟩ => exact h1)

/-- Two one-coordinate indices with the same coordinate are equal. -/
theorem idx1_ext {a : Nat} (i j : (⟨1, ![a]⟩ : Shape).Idx) (h0 : (i 0).val = (j 0).val) : i = j :=
  funext fun d => Fin.ext (by match d with | ⟨0, _⟩ => exact h0)

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))

/-- The first product with its bias row, at an entry: x's row n against W1's row j (the transposed weight's
    column j), plus b1 at j. -/
theorem p1_eq (n : Fin 10000) (j : Fin 128) :
    val_main_v4 (F := Ideal) x0 x2 x3 (ix2 n j) = Cert.Spec.p1 x0 x2 x3 n j := by
  rw [val_main_v4_apply, val_main_v1_apply, val_main_v3_apply, val_main_v2_apply, Ideal.addf_def]
  unfold Cert.Spec.p1
  refine congrArg₂ (· + ·) (Finset.sum_congr rfl fun k _ => ?_) ?_
  · rw [val_main_v0_apply]
    exact congrArg₂ (· * ·) (congrArg x0 (idx2_ext _ _ rfl rfl)) (congrArg x2 (idx2_ext _ _ rfl rfl))
  · exact congrArg x3 (idx1_ext _ _ rfl)

/-- The first aggregation, rectified, at an entry: the adjacency's row n against column j of the first product,
    then the maximum with the zero the rectifier's constant denotes. -/
theorem h1_eq (n : Fin 10000) (j : Fin 128) :
    val_main_v6 (F := Ideal) x0 x1 x2 x3 (ix2 n j) = Cert.Spec.h1 x0 x1 x2 x3 n j := by
  rw [val_main_v6_apply, val_main_v5_apply, val_main_call0_v0_apply, val_main_call0_cst_apply, Ideal.maximumf_def,
    Ideal.ofBits_def, Ideal.ofBits_zero_f32]
  unfold Cert.Spec.h1
  refine congrArg₂ max (Finset.sum_congr rfl fun k _ => ?_) rfl
  refine congrArg₂ (· * ·) (congrArg x1 (idx2_ext _ _ rfl rfl)) ?_
  exact (congrArg (val_main_v4 (F := Ideal) x0 x2 x3) (idx2_ext (ridx_main_v5 (ix2 n j) k) (ix2 k j) rfl rfl)).trans (p1_eq x0 x2 x3 k j)

/-- The second layer's linear map, at an entry: row n of the rectified aggregation against W2's row e, plus b2 at e. -/
theorem h2_eq (n : Fin 10000) (e : Fin 64) :
    val_main_v11 (F := Ideal) x0 x1 x2 x3 x4 x5 (ix2 n e) = Cert.Spec.h2 x0 x1 x2 x3 x4 x5 n e := by
  rw [val_main_v11_apply, val_main_v8_apply, val_main_v10_apply, val_main_v9_apply, Ideal.addf_def]
  unfold Cert.Spec.h2
  refine congrArg₂ (· + ·) (Finset.sum_congr rfl fun k _ => ?_) ?_
  · rw [val_main_v7_apply]
    refine congrArg₂ (· * ·) ?_ (congrArg x4 (idx2_ext _ _ rfl rfl))
    exact (congrArg (val_main_v6 (F := Ideal) x0 x1 x2 x3) (idx2_ext (lidx_main_v8 (ix2 n e) k) (ix2 n k) rfl rfl)).trans (h1_eq x0 x1 x2 x3 n k)
  · exact congrArg x5 (idx1_ext _ _ rfl)

/-- The embedding, at an entry: the adjacency's row n against column e of the second layer's linear map. -/
theorem emb_eq (n : Fin 10000) (e : Fin 64) :
    val_main_v12 (F := Ideal) x0 x1 x2 x3 x4 x5 (ix2 n e) = Cert.Spec.emb x0 x1 x2 x3 x4 x5 n e := by
  rw [val_main_v12_apply]
  unfold Cert.Spec.emb
  refine Finset.sum_congr rfl fun k _ => ?_
  refine congrArg₂ (· * ·) (congrArg x1 (idx2_ext _ _ rfl rfl)) ?_
  exact (congrArg (val_main_v11 (F := Ideal) x0 x1 x2 x3 x4 x5) (idx2_ext (ridx_main_v12 (ix2 n e) k) (ix2 k e) rfl rfl)).trans
    (h2_eq x0 x1 x2 x3 x4 x5 k e)

/-- The projection head's hidden layer, at an entry: row n of the embedding against Wp1's row r, plus bp1 at r,
    rectified. -/
theorem q_eq (n : Fin 10000) (r : Fin 64) :
    val_main_v18 (F := Ideal) x0 x1 x2 x3 x4 x5 x6 x7 (ix2 n r) = Cert.Spec.q x0 x1 x2 x3 x4 x5 x6 x7 n r := by
  rw [val_main_v18_apply, val_main_v17_apply, val_main_v14_apply, val_main_v16_apply, val_main_v15_apply,
    val_main_call1_v0_apply, val_main_call1_cst_apply, Ideal.maximumf_def, Ideal.addf_def, Ideal.ofBits_def,
    Ideal.ofBits_zero_f32]
  unfold Cert.Spec.q
  refine congrArg₂ max (congrArg₂ (· + ·) (Finset.sum_congr rfl fun k _ => ?_) ?_) rfl
  · rw [val_main_v13_apply]
    refine congrArg₂ (· * ·) ?_ (congrArg x6 (idx2_ext _ _ rfl rfl))
    exact (congrArg (val_main_v12 (F := Ideal) x0 x1 x2 x3 x4 x5) (idx2_ext (lidx_main_v14 (ix2 n r) k) (ix2 n k) rfl rfl)).trans
      (emb_eq x0 x1 x2 x3 x4 x5 n k)
  · exact congrArg x7 (idx1_ext _ _ rfl)

/-- The projection head's output, at an entry: row n of the hidden layer against Wp2's row p, plus bp2 at p. -/
theorem z_eq (n : Fin 10000) (p : Fin 64) :
    val_main_v23 (F := Ideal) x0 x1 x2 x3 x4 x5 x6 x7 x8 x9 (ix2 n p)
      = Cert.Spec.z x0 x1 x2 x3 x4 x5 x6 x7 x8 x9 n p := by
  rw [val_main_v23_apply, val_main_v20_apply, val_main_v22_apply, val_main_v21_apply, Ideal.addf_def]
  unfold Cert.Spec.z
  refine congrArg₂ (· + ·) (Finset.sum_congr rfl fun k _ => ?_) ?_
  · rw [val_main_v19_apply]
    refine congrArg₂ (· * ·) ?_ (congrArg x8 (idx2_ext _ _ rfl rfl))
    exact (congrArg (val_main_v18 (F := Ideal) x0 x1 x2 x3 x4 x5 x6 x7) (idx2_ext (lidx_main_v20 (ix2 n p) k) (ix2 n k) rfl rfl)).trans
      (q_eq x0 x1 x2 x3 x4 x5 x6 x7 n k)
  · exact congrArg x9 (idx1_ext _ _ rfl)

/-- The second result as an array is the specification's embedding array. -/
theorem embArr_eq : val_main_v12 (F := Ideal) x0 x1 x2 x3 x4 x5 = Cert.Spec.embArr x0 x1 x2 x3 x4 x5 := by
  funext j
  obtain ⟨n, e, rfl⟩ : ∃ (n : Fin 10000) (e : Fin 64), j = ix2 n e := ⟨j 0, j 1, eq_ix2 j⟩
  exact (emb_eq x0 x1 x2 x3 x4 x5 n e).trans (Cert.Spec.embArr_apply x0 x1 x2 x3 x4 x5 n e).symm

/-- The first result as an array is the specification's projection array. -/
theorem zArr_eq : val_main_v23 (F := Ideal) x0 x1 x2 x3 x4 x5 x6 x7 x8 x9
    = Cert.Spec.zArr x0 x1 x2 x3 x4 x5 x6 x7 x8 x9 := by
  funext j
  obtain ⟨n, p, rfl⟩ : ∃ (n : Fin 10000) (p : Fin 64), j = ix2 n p := ⟨j 0, j 1, eq_ix2 j⟩
  exact (z_eq x0 x1 x2 x3 x4 x5 x6 x7 x8 x9 n p).trans (Cert.Spec.zArr_apply x0 x1 x2 x3 x4 x5 x6 x7 x8 x9 n p).symm

end Stages

/-- Every weakly fair execution of the reference from `m'` terminates with its first result the specification's z
    and its second the specification's emb of the argument arrays, the arguments unchanged. -/
theorem run_spec [hReferenceIdeal : Cert.ReferenceIdeal.Facts]
    (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v23) = Cert.Spec.zArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v12) = Cert.Spec.embArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  -- the run ends with each result at the composed term of the operations; that term is the last stage, and the
  -- last stage is the specification's array, entry by entry
  refine (θ_run (Cert.ReferenceIdeal.defs (F := Ideal)) _ _).mono (fun r h c => ?_)
    (Cert.ReferenceIdeal.Value.run (F := Ideal) m' g')
  obtain ⟨hz, he, hargs⟩ := h c
  refine ⟨hz.trans ?_, he.trans ?_, hargs⟩
  · exact (Cert.ReferenceIdeal.Read.val_main_v23_eq _ _ _ _ _ _ _ _ _ _).trans (zArr_eq _ _ _ _ _ _ _ _ _ _)
  · exact (Cert.ReferenceIdeal.Read.val_main_v12_eq _ _ _ _ _ _).trans (embArr_eq _ _ _ _ _ _)

end Cert.RefValue

end
-- ==== Proof.lean ====
/-
  The certificate: the kernel and its idealization run and leave their arguments unchanged, the reference does the
  same, and at the ideal values the idealized kernel and the reference end with equal results.

  Both programs compute, entry by entry over the extended reals, the two-layer graph convolution with a projection
  head of Spec.lean: p1 = x · W1ᵀ + b1, h2 = relu(Adj · p1) · W2ᵀ + b2, emb = Adj · h2,
  z = relu(emb · Wp1ᵀ + bp1) · Wp2ᵀ + bp2, with results (z, emb). The kernel streams Adj twice in blocks of 400 rows
  (phase 0 fills h2 block by block in a scratch buffer, phase 1 produces emb and z block by block); a block of rows of
  a product is the product of the block of rows, so the blocks are restrictions of the whole arrays, and no law beyond
  reading each product as its sum is used — the precondition is never opened. The ideal pass rewrote nothing, so the
  idealization is the kernel's own text and `preserves` is trivial.
-/
import proofs.«104239_g652835029058_cont_9to1_m_690_12_alg».proof.Defs
import proofs.«104239_g652835029058_cont_9to1_m_690_12_alg».proof.Proof.Gen.Kernel
import proofs.«104239_g652835029058_cont_9to1_m_690_12_alg».proof.Proof.Gen.KernelIdeal
import proofs.«104239_g652835029058_cont_9to1_m_690_12_alg».proof.Proof.Gen.ReferenceIdeal
import proofs.«104239_g652835029058_cont_9to1_m_690_12_alg».proof.Proof.Gen.Pre_finite_inputs
import proofs.«104239_g652835029058_cont_9to1_m_690_12_alg».proof.Proof.KData
import proofs.«104239_g652835029058_cont_9to1_m_690_12_alg».proof.Proof.KIFinal
import proofs.«104239_g652835029058_cont_9to1_m_690_12_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the frame run of its pipeline, read at the arguments. -/
theorem frame_k : Cert.frame_Kernel := fun m ρ _ => Cert.Kernel.Hand.frame m ρ

/-- The same for the idealized kernel. -/
theorem frame_ki : Cert.frame_KernelIdeal := fun m ρ _ => Cert.KernelIdeal.Hand.frame m ρ

/-- The reference runs and keeps its arguments: its run with the results dropped. -/
theorem frame_ri : Cert.frame_ReferenceIdeal := fun m ρ _ =>
  (θ_run Cert.ReferenceIdeal.defs _ _).mono (fun _ h c => (h c).2.2) (Cert.RefValue.run_spec m ρ)

/-- The ideal pass rewrote no operation. -/
theorem preserves : Cert.preserves_Kernel_KernelIdeal := trivial

/-- From memories agreeing on the arguments both programs end with the specification's z and emb of those arguments. -/
theorem algebraic : Cert.algebraic_KernelIdeal_ReferenceIdeal := by
  intro m ρ m' ρ' _ hagree
  refine ⟨fun c => Cert.Spec.zArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.embArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.HandValue.run_spec m ρ, ?_⟩
  refine (θ_run Cert.ReferenceIdeal.defs _ _).mono (fun r h c => ?_) (Cert.RefValue.run_spec m' ρ')
  obtain ⟨a0, a1, a2, a3, a4, a5, a6, a7, a8, a9⟩ := hagree c
  refine ⟨?_, ?_, (h c).2.2⟩
  · rw [(h c).1, a0, a1, a2, a3, a4, a5, a6, a7, a8, a9]
  · rw [(h c).2.1, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
